-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x128 : Shape := ⟨2, ![32768, 128]⟩
abbrev S32768 : Shape := ⟨1, ![32768]⟩
abbrev S32768x8x128 : Shape := ⟨3, ![32768, 8, 128]⟩
abbrev S32768x8 : Shape := ⟨2, ![32768, 8]⟩
abbrev S128x128 : Shape := ⟨2, ![128, 128]⟩
abbrev S128 : Shape := ⟨1, ![128]⟩
abbrev S1024x128 : Shape := ⟨2, ![1024, 128]⟩
abbrev S1024x1024 : Shape := ⟨2, ![1024, 1024]⟩
abbrev S1024 : Shape := ⟨1, ![1024]⟩
abbrev S_ : Shape := ⟨0, ![]⟩

class Facts : Prop where
  bcast_S_S32768x128 : S_.BroadcastsInDim S32768x128 (![] : Fin 0 → Fin S32768x128.rank)
  reducesTo_S32768x128_S_d0_1 : S32768x128.ReducesTo [0, 1] S_
  h_S_ : 0 < S_.numel
  bcast_S_S32768 : S_.BroadcastsInDim S32768 (![] : Fin 0 → Fin S32768.rank)
  reducesTo_S32768_S_d0 : S32768.ReducesTo [0] S_
  bcast_S_S32768x8x128 : S_.BroadcastsInDim S32768x8x128 (![] : Fin 0 → Fin S32768x8x128.rank)
  reducesTo_S32768x8x128_S_d0_1_2 : S32768x8x128.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1024x128 : S_.BroadcastsInDim S1024x128 (![] : Fin 0 → Fin S1024x128.rank)
  reducesTo_S1024x128_S_d0_1 : S1024x128.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S32768x8 : S_.BroadcastsInDim S32768x8 (![] : Fin 0 → Fin S32768x8.rank)
  reducesTo_S32768x8_S_d0_1 : S32768x8.ReducesTo [0, 1] S_

variable [Facts]

def fn_part3 {F : FTy → Type} [FloatOps F] (main_arg4 : IVec S32768x8 32) (main_v48 : IVec S_ 1) (main_v50 : IVec S32768x8 1) : IVec S_ 1 :=
  let main_c_19 : IVec S_ 1 := constantI S_ 1 1#1
  let main_v51 : IVec S_ 1 := (fun x v => Host.reduce IntOp.andi x v reducesTo_S32768x8_S_d0_1 h_S_) main_v50 main_c_19
  let main_v52 : IVec S_ 1 := andi main_v48 main_v51
  let main_c_20 : IVec S_ 32 := constantI S_ 32 8#32
  let main_v53 : IVec S32768x8 32 := broadcastInDim S32768x8 ![] bcast_S_S32768x8 main_c_20
  let main_v54 : IVec S32768x8 1 := cmpi .slt main_arg4 main_v53
  let main_c_21 : IVec S_ 1 := constantI S_ 1 1#1
  let main_v55 : IVec S_ 1 := (fun x v => Host.reduce IntOp.andi x v reducesTo_S32768x8_S_d0_1 h_S_) main_v54 main_c_21
  let main_v56 : IVec S_ 1 := andi main_v52 main_v55
  main_v56

def fn_part2 {F : FTy → Type} [FloatOps F] (main_arg4 : IVec S32768x8 32) (main_arg8 : FVec F S128 .f32) (main_arg9 : FVec F S1024x1024 .f32) (main_arg10 : FVec F S1024 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S1024x1024 .f32 := Host.absf main_arg9
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024 .f32 := Host.absf main_arg10
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_c_18 : IVec S_ 32 := constantI S_ 32 0#32
  let main_v49 : IVec S32768x8 32 := broadcastInDim S32768x8 ![] bcast_S_S32768x8 main_c_18
  let main_v50 : IVec S32768x8 1 := cmpi .sge main_arg4 main_v49
  fn_part3 (F := F) main_arg4 main_v48 main_v50

def fn_part1 {F : FTy → Type} [FloatOps F] (main_arg4 : IVec S32768x8 32) (main_arg5 : FVec F S128x128 .f32) (main_arg6 : FVec F S128 .f32) (main_arg7 : FVec F S1024x128 .f32) (main_arg8 : FVec F S128 .f32) (main_arg9 : FVec F S1024x1024 .f32) (main_arg10 : FVec F S1024 .f32) (main_v13 : IVec S_ 1) (main_v16 : IVec S32768x8x128 1) : IVec S_ 1 :=
  let main_c_5 : IVec S_ 1 := constantI S_ 1 1#1
  let main_v17 : IVec S_ 1 := (fun x v => Host.reduce IntOp.andi x v reducesTo_S32768x8x128_S_d0_1_2 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S1024x128 .f32 := Host.absf main_arg7
  let main_cst_10 : FVec F S_ .f32 := constant S_ .f32 0x7F800000#32
  let main_v30 : FVec F S1024x128 .f32 := broadcastInDim S1024x128 ![] bcast_S_S1024x128 main_cst_10
  let main_v31 : IVec S1024x128 1 := cmpf .olt main_v29 main_v30
  let main_c_11 : IVec S_ 1 := constantI S_ 1 1#1
  let main_v32 : IVec S_ 1 := (fun x v => Host.reduce IntOp.andi x v reducesTo_S1024x128_S_d0_1 h_S_) main_v31 main_c_11
  let main_v33 : IVec S_ 1 := andi main_v28 main_v32
  fn_part2 (F := F) main_arg4 main_arg8 main_arg9 main_arg10 main_v33

def fn {F : FTy → Type} [FloatOps F] (main_arg0 : FVec F S32768x128 .f32) (main_arg1 : FVec F S32768 .f32) (main_arg2 : FVec F S32768x8x128 .f32) (main_arg3 : FVec F S32768x8x128 .f32) (main_arg4 : IVec S32768x8 32) (main_arg5 : FVec F S128x128 .f32) (main_arg6 : FVec F S128 .f32) (main_arg7 : FVec F S1024x128 .f32) (main_arg8 : FVec F S128 .f32) (main_arg9 : FVec F S1024x1024 .f32) (main_arg10 : FVec F S1024 .f32) : IVec S_ 1 :=
  let main_v0 : FVec F S32768x128 .f32 := Host.absf main_arg0
  let main_cst : FVec F S_ .f32 := constant S_ .f32 0x7F800000#32
  let main_v1 : FVec F S32768x128 .f32 := broadcastInDim S32768x128 ![] bcast_S_S32768x128 main_cst
  let main_v2 : IVec S32768x128 1 := cmpf .olt main_v0 main_v1
  let main_c : IVec S_ 1 := constantI S_ 1 1#1
  let main_v3 : IVec S_ 1 := (fun x v => Host.reduce IntOp.andi x v reducesTo_S32768x128_S_d0_1 h_S_) main_v2 main_c
  let main_v4 : FVec F S32768 .f32 := Host.absf main_arg1
  let main_cst_0 : FVec F S_ .f32 := constant S_ .f32 0x7F800000#32
  let main_v5 : FVec F S32768 .f32 := broadcastInDim S32768 ![] bcast_S_S32768 main_cst_0
  let main_v6 : IVec S32768 1 := cmpf .olt main_v4 main_v5
  let main_c_1 : IVec S_ 1 := constantI S_ 1 1#1
  let main_v7 : IVec S_ 1 := (fun x v => Host.reduce IntOp.andi x v reducesTo_S32768_S_d0 h_S_) main_v6 main_c_1
  let main_v8 : IVec S_ 1 := andi main_v3 main_v7
  let main_v9 : FVec F S32768x8x128 .f32 := Host.absf main_arg2
  let main_cst_2 : FVec F S_ .f32 := constant S_ .f32 0x7F800000#32
  let main_v10 : FVec F S32768x8x128 .f32 := broadcastInDim S32768x8x128 ![] bcast_S_S32768x8x128 main_cst_2
  let main_v11 : IVec S32768x8x128 1 := cmpf .olt main_v9 main_v10
  let main_c_3 : IVec S_ 1 := constantI S_ 1 1#1
  let main_v12 : IVec S_ 1 := (fun x v => Host.reduce IntOp.andi x v reducesTo_S32768x8x128_S_d0_1_2 h_S_) main_v11 main_c_3
  let main_v13 : IVec S_ 1 := andi main_v8 main_v12
  let main_v14 : FVec F S32768x8x128 .f32 := Host.absf main_arg3
  let main_cst_4 : FVec F S_ .f32 := constant S_ .f32 0x7F800000#32
  let main_v15 : FVec F S32768x8x128 .f32 := broadcastInDim S32768x8x128 ![] bcast_S_S32768x8x128 main_cst_4
  let main_v16 : IVec S32768x8x128 1 := cmpf .olt main_v14 main_v15
  fn_part1 (F := F) main_arg4 main_arg5 main_arg6 main_arg7 main_arg8 main_arg9 main_arg10 main_v13 main_v16
-- ==== Kernel.lean ====
abbrev S32768x128 : Shape := ⟨2, ![32768, 128]⟩
abbrev S32768 : Shape := ⟨1, ![32768]⟩
abbrev S32768x8x128 : Shape := ⟨3, ![32768, 8, 128]⟩
abbrev S32768x8 : Shape := ⟨2, ![32768, 8]⟩
abbrev S128x128 : Shape := ⟨2, ![128, 128]⟩
abbrev S128 : Shape := ⟨1, ![128]⟩
abbrev S1024x128 : Shape := ⟨2, ![1024, 128]⟩
abbrev S1024x1024 : Shape := ⟨2, ![1024, 1024]⟩
abbrev S1024 : Shape := ⟨1, ![1024]⟩
abbrev S32768x1 : Shape := ⟨2, ![32768, 1]⟩
abbrev S1x128 : Shape := ⟨2, ![1, 128]⟩
abbrev S1x1024 : Shape := ⟨2, ![1, 1024]⟩
abbrev S_ : Shape := ⟨0, ![]⟩
abbrev S512x128 : Shape := ⟨2, ![512, 128]⟩
abbrev S512x1 : Shape := ⟨2, ![512, 1]⟩
abbrev S512x8x128 : Shape := ⟨3, ![512, 8, 128]⟩
abbrev S512x8 : Shape := ⟨2, ![512, 8]⟩
abbrev S512x8x1 : Shape := ⟨3, ![512, 8, 1]⟩
abbrev S512x1x128 : Shape := ⟨3, ![512, 1, 128]⟩
abbrev S512x1024 : Shape := ⟨2, ![512, 1024]⟩

abbrev nBuf : Space → Nat
  | .hbm => 28
  | .vmem => 20
  | .smem => 0
  | _ => 0

abbrev bufTy : (tb : Table) → Fin (tcTables nBuf tb) → BufTy
  | .hbm, ⟨0, _⟩ => ⟨S32768x128, .f32⟩
  | .hbm, ⟨1, _⟩ => ⟨S32768, .f32⟩
  | .hbm, ⟨2, _⟩ => ⟨S32768x8x128, .f32⟩
  | .hbm, ⟨3, _⟩ => ⟨S32768x8x128, .f32⟩
  | .hbm, ⟨4, _⟩ => ⟨S32768x8, .i32⟩
  | .hbm, ⟨5, _⟩ => ⟨S128x128, .f32⟩
  | .hbm, ⟨6, _⟩ => ⟨S128, .f32⟩
  | .hbm, ⟨7, _⟩ => ⟨S1024x128, .f32⟩
  | .hbm, ⟨8, _⟩ => ⟨S128, .f32⟩
  | .hbm, ⟨9, _⟩ => ⟨S1024x1024, .f32⟩
  | .hbm, ⟨10, _⟩ => ⟨S1024, .f32⟩
  | .hbm, ⟨11, _⟩ => ⟨S32768x1, .f32⟩
  | .hbm, ⟨12, _⟩ => ⟨S1x128, .f32⟩
  | .hbm, ⟨13, _⟩ => ⟨S1x128, .f32⟩
  | .hbm, ⟨14, _⟩ => ⟨S1x1024, .f32⟩
  | .hbm, ⟨15, _⟩ => ⟨S128x128, .bf16⟩
  | .hbm, ⟨16, _⟩ => ⟨S1024x128, .bf16⟩
  | .hbm, ⟨17, _⟩ => ⟨S1024x1024, .bf16⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S32768x8, .i32⟩
  | .hbm, ⟨22, _⟩ => ⟨S32768x8, .i32⟩
  | .hbm, ⟨23, _⟩ => ⟨S_, .i32⟩
  | .hbm, ⟨24, _⟩ => ⟨S32768x8, .i32⟩
  | .hbm, ⟨25, _⟩ => ⟨S32768x8, .i32⟩
  | .hbm, ⟨26, _⟩ => ⟨S32768x128, .f32⟩
  | .hbm, ⟨27, _⟩ => ⟨S32768x128, .f32⟩
  | .local _ .vmem, ⟨0, _⟩ => ⟨S512x128, .f32⟩
  | .local _ .vmem, ⟨1, _⟩ => ⟨S512x128, .f32⟩
  | .local _ .vmem, ⟨2, _⟩ => ⟨S512x1, .f32⟩
  | .local _ .vmem, ⟨3, _⟩ => ⟨S512x1, .f32⟩
  | .local _ .vmem, ⟨4, _⟩ => ⟨S512x8x128, .f32⟩
  | .local _ .vmem, ⟨5, _⟩ => ⟨S512x8x128, .f32⟩
  | .local _ .vmem, ⟨6, _⟩ => ⟨S512x8x128, .f32⟩
  | .local _ .vmem, ⟨7, _⟩ => ⟨S512x8x128, .f32⟩
  | .local _ .vmem, ⟨8, _⟩ => ⟨S512x8, .i32⟩
  | .local _ .vmem, ⟨9, _⟩ => ⟨S512x8, .i32⟩
  | .local _ .vmem, ⟨10, _⟩ => ⟨S128x128, .bf16⟩
  | .local _ .vmem, ⟨11, _⟩ => ⟨S1x128, .f32⟩
  | .local _ .vmem, ⟨12, _⟩ => ⟨S1024x128, .bf16⟩
  | .local _ .vmem, ⟨13, _⟩ => ⟨S1x128, .f32⟩
  | .local _ .vmem, ⟨14, _⟩ => ⟨S1024x1024, .bf16⟩
  | .local _ .vmem, ⟨15, _⟩ => ⟨S1x1024, .f32⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | _, _ => ⟨S32768x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c : Ref sig .tc := ⟨.hbm, 18, rfl⟩
abbrev main_c_0 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v7 : Ref sig .tc := ⟨.hbm, 25, rfl⟩
abbrev main_v8_0 : Ref sig .tc := ⟨.hbm, 26, rfl⟩
abbrev main_v8_1 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x8 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  shapeCasts_S32768_S32768x1 : S32768.ShapeCasts S32768x1
  shapeCasts_S128_S1x128 : S128.ShapeCasts S1x128
  shapeCasts_S1024_S1x1024 : S1024.ShapeCasts S1x1024
  bitsLt_bf16_f32 : FTy.bits .bf16 < FTy.bits .f32
  bcast_S_S32768x8 : S_.BroadcastsInDim S32768x8 (![] : Fin 0 → Fin S32768x8.rank)
  inb_S512x8_S512x8_0_0 : ∀ a, (![0, 0] : Fin 2 → Nat) a + S512x8.size a ≤ S512x8.size a
  h_S512x8 : 0 < S512x8.numel
  shapeCasts_S512x8_S512x8 : S512x8.ShapeCasts S512x8
  natLt_1_32 : 1 < 32
  shapeCasts_S512x8_S512x8x1 : S512x8.ShapeCasts S512x8x1
  inb_S512x8x128_S512x1x128_0_0_0 : ∀ a, (![0, 0, 0] : Fin 3 → Nat) a + S512x1x128.size a ≤ S512x8x128.size a
  h_S512x1x128 : 0 < S512x1x128.numel
  shapeCasts_S512x1x128_S512x128 : S512x1x128.ShapeCasts S512x128
  shapeCasts_S512x128_S512x1x128 : S512x128.ShapeCasts S512x1x128
  shapeCasts_S512x1x128_S512x1x128 : S512x1x128.ShapeCasts S512x1x128
  broadcasts_S512x1x128_S512x8x128 : S512x1x128.Broadcasts S512x8x128
  broadcasts_S512x8x1_S512x8x128 : S512x8x1.Broadcasts S512x8x128
  inb_S512x8x128_S512x1x128_0_1_0 : ∀ a, (![0, 1, 0] : Fin 3 → Nat) a + S512x1x128.size a ≤ S512x8x128.size a
  inb_S512x8x128_S512x1x128_0_2_0 : ∀ a, (![0, 2, 0] : Fin 3 → Nat) a + S512x1x128.size a ≤ S512x8x128.size a
  inb_S512x8x128_S512x1x128_0_3_0 : ∀ a, (![0, 3, 0] : Fin 3 → Nat) a + S512x1x128.size a ≤ S512x8x128.size a
  inb_S512x8x128_S512x1x128_0_4_0 : ∀ a, (![0, 4, 0] : Fin 3 → Nat) a + S512x1x128.size a ≤ S512x8x128.size a
  inb_S512x8x128_S512x1x128_0_5_0 : ∀ a, (![0, 5, 0] : Fin 3 → Nat) a + S512x1x128.size a ≤ S512x8x128.size a
  inb_S512x8x128_S512x1x128_0_6_0 : ∀ a, (![0, 6, 0] : Fin 3 → Nat) a + S512x1x128.size a ≤ S512x8x128.size a
  inb_S512x8x128_S512x1x128_0_7_0 : ∀ a, (![0, 7, 0] : Fin 3 → Nat) a + S512x1x128.size a ≤ S512x8x128.size a
  shapeCasts_S512x8x128_S512x1024 : S512x8x128.ShapeCasts S512x1024
  inb_S512x128_S512x128_0_0 : ∀ a, (![0, 0] : Fin 2 → Nat) a + S512x128.size a ≤ S512x128.size a
  h_S512x128 : 0 < S512x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x128 : S512x1.Broadcasts S512x128
  concatenates_S512x128_S512x128_S512x128_S512x128_S512x128_S512x128_S512x128_S512x128_S512x1024_d1 : Shape.Concatenates [S512x128, S512x128, S512x128, S512x128, S512x128, S512x128, S512x128, S512x128] S512x1024 1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  slices_S512x1024_o0_0_S512x128 : S512x1024.Slices ![0, 0] S512x128
  slices_S512x1024_o0_128_S512x128 : S512x1024.Slices ![0, 128] S512x128
  slices_S512x1024_o0_256_S512x128 : S512x1024.Slices ![0, 256] S512x128
  slices_S512x1024_o0_384_S512x128 : S512x1024.Slices ![0, 384] S512x128
  slices_S512x1024_o0_512_S512x128 : S512x1024.Slices ![0, 512] S512x128
  slices_S512x1024_o0_640_S512x128 : S512x1024.Slices ![0, 640] S512x128
  slices_S512x1024_o0_768_S512x128 : S512x1024.Slices ![0, 768] S512x128
  slices_S512x1024_o0_896_S512x128 : S512x1024.Slices ![0, 896] S512x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  dot_S512x128_S128x128_S512x128_1_0_0_1_n_n_wf : DotDims.WF S512x128 S128x128 S512x128 [1] [0] [0] [1] [] []
  dot_S512x1024_S1024x1024_S512x1024_1_0_0_1_n_n_wf : DotDims.WF S512x1024 S1024x1024 S512x1024 [1] [0] [0] [1] [] []
  dot_S512x1024_S1024x128_S512x128_1_0_0_1_n_n_wf : DotDims.WF S512x1024 S1024x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S32768x128.size a
  hwx0_0 : ∀ i : grid0.Coords, EltTy.bits .f32 = 32 ∨ (Rect.block (s := S32768x128) S512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S32768x1.size a
  hwx0_1 : ∀ i : grid0.Coords, EltTy.bits .f32 = 32 ∨ (Rect.block (s := S32768x1) S512x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x8x128.size a ≤ S32768x8x128.size a
  hwx0_2 : ∀ i : grid0.Coords, EltTy.bits .f32 = 32 ∨ (Rect.block (s := S32768x8x128) S512x8x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x8x128.size a ≤ S32768x8x128.size a
  hwx0_3 : ∀ i : grid0.Coords, EltTy.bits .f32 = 32 ∨ (Rect.block (s := S32768x8x128) S512x8x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x8.size a ≤ S32768x8.size a
  hwx0_4 : ∀ i : grid0.Coords, EltTy.bits .i32 = 32 ∨ (Rect.block (s := S32768x8) S512x8.size (cc0_transform_4 i) (hinb0_4 i)).WholeWords (EltTy.packing .i32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x128.size a ≤ S1024x128.size a
  hwx0_7 : ∀ i : grid0.Coords, EltTy.bits .bf16 = 32 ∨ (Rect.block (s := S1024x128) S1024x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024x1024.size a ≤ S1024x1024.size a
  hwx0_9 : ∀ i : grid0.Coords, EltTy.bits .bf16 = 32 ∨ (Rect.block (s := S1024x1024) S1024x1024.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1024.size a ≤ S1x1024.size a
  hwx0_10 : ∀ i : grid0.Coords, EltTy.bits .f32 = 32 ∨ (Rect.block (s := S1x1024) S1x1024.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S512x128.size a ≤ S32768x128.size a
  hwx0_11 : ∀ i : grid0.Coords, EltTy.bits .f32 = 32 ∨ (Rect.block (s := S32768x128) S512x128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S512x128.size a ≤ S32768x128.size a
  hwx0_12 : ∀ i : grid0.Coords, EltTy.bits .f32 = 32 ∨ (Rect.block (s := S32768x128) S512x128.size (cc0_transform_12 i) (hinb0_12 i)).WholeWords (EltTy.packing .f32)

variable [Facts₀]

def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S1024x128_S512x128_1_0_0_1_n_n : DotDims S512x1024 S1024x128 S512x128 where
  lhsContracting := [1]
  rhsContracting := [0]
  lhsNonContracting := [0]
  rhsNonContracting := [1]
  lhsBatch := []
  rhsBatch := []
  wf := dot_S512x1024_S1024x128_S512x128_1_0_0_1_n_n_wf

abbrev win0_0 : Pipeline.Window sig grid0 :=
  Pipeline.Window.ofSpec (Memref.whole main_arg0) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x8x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x8x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S512x8.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S1024x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v2) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v6) S1024x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v3) S1x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v8_0) S512x128.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v8_1) S512x128.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S32768x128 : Shape := ⟨2, ![32768, 128]⟩
abbrev S32768 : Shape := ⟨1, ![32768]⟩
abbrev S32768x8x128 : Shape := ⟨3, ![32768, 8, 128]⟩
abbrev S32768x8 : Shape := ⟨2, ![32768, 8]⟩
abbrev S128x128 : Shape := ⟨2, ![128, 128]⟩
abbrev S128 : Shape := ⟨1, ![128]⟩
abbrev S1024x128 : Shape := ⟨2, ![1024, 128]⟩
abbrev S1024x1024 : Shape := ⟨2, ![1024, 1024]⟩
abbrev S1024 : Shape := ⟨1, ![1024]⟩
abbrev S32768x8x1 : Shape := ⟨3, ![32768, 8, 1]⟩
abbrev S_ : Shape := ⟨0, ![]⟩
abbrev S1 : Shape := ⟨1, ![1]⟩
abbrev S1x1x1 : Shape := ⟨3, ![1, 1, 1]⟩
abbrev S1x128 : Shape := ⟨2, ![1, 128]⟩
abbrev S32768x1 : Shape := ⟨2, ![32768, 1]⟩
abbrev S1x32768x1x128 : Shape := ⟨4, ![1, 32768, 1, 128]⟩
abbrev S1x32768x8x128 : Shape := ⟨4, ![1, 32768, 8, 128]⟩
abbrev S32768x1024 : Shape := ⟨2, ![32768, 1024]⟩
abbrev S1x1024 : Shape := ⟨2, ![1, 1024]⟩

abbrev nBuf : Space → Nat
  | .hbm => 91
  | .vmem => 0
  | .smem => 0
  | _ => 0

abbrev bufTy : (tb : Table) → Fin (tcTables nBuf tb) → BufTy
  | .hbm, ⟨0, _⟩ => ⟨S32768x128, .f32⟩
  | .hbm, ⟨1, _⟩ => ⟨S32768, .f32⟩
  | .hbm, ⟨2, _⟩ => ⟨S32768x8x128, .f32⟩
  | .hbm, ⟨3, _⟩ => ⟨S32768x8x128, .f32⟩
  | .hbm, ⟨4, _⟩ => ⟨S32768x8, .i32⟩
  | .hbm, ⟨5, _⟩ => ⟨S128x128, .f32⟩
  | .hbm, ⟨6, _⟩ => ⟨S128, .f32⟩
  | .hbm, ⟨7, _⟩ => ⟨S1024x128, .f32⟩
  | .hbm, ⟨8, _⟩ => ⟨S128, .f32⟩
  | .hbm, ⟨9, _⟩ => ⟨S1024x1024, .f32⟩
  | .hbm, ⟨10, _⟩ => ⟨S1024, .f32⟩
  | .hbm, ⟨11, _⟩ => ⟨S32768x8x1, .i32⟩
  | .hbm, ⟨12, _⟩ => ⟨S_, .i32⟩
  | .hbm, ⟨13, _⟩ => ⟨S32768x8x1, .i32⟩
  | .hbm, ⟨14, _⟩ => ⟨S32768x8x1, .i1⟩
  | .hbm, ⟨15, _⟩ => ⟨S_, .i32⟩
  | .hbm, ⟨16, _⟩ => ⟨S32768x8x1, .i32⟩
  | .hbm, ⟨17, _⟩ => ⟨S32768x8x1, .i32⟩
  | .hbm, ⟨18, _⟩ => ⟨S32768x8x1, .i32⟩
  | .hbm, ⟨19, _⟩ => ⟨S1, .i32⟩
  | .hbm, ⟨20, _⟩ => ⟨S_, .i32⟩
  | .hbm, ⟨21, _⟩ => ⟨S32768x8x1, .i32⟩
  | .hbm, ⟨22, _⟩ => ⟨S32768x8x1, .i1⟩
  | .hbm, ⟨23, _⟩ => ⟨S1x1x1, .i32⟩
  | .hbm, ⟨24, _⟩ => ⟨S32768x8x1, .i32⟩
  | .hbm, ⟨25, _⟩ => ⟨S32768x8x1, .i1⟩
  | .hbm, ⟨26, _⟩ => ⟨S32768x8x1, .i1⟩
  | .hbm, ⟨27, _⟩ => ⟨S_, .i1⟩
  | .hbm, ⟨28, _⟩ => ⟨S32768x8, .i1⟩
  | .hbm, ⟨29, _⟩ => ⟨S32768x8x128, .f32⟩
  | .hbm, ⟨30, _⟩ => ⟨S32768x8x128, .i1⟩
  | .hbm, ⟨31, _⟩ => ⟨S_, .f32⟩
  | .hbm, ⟨32, _⟩ => ⟨S32768x8x128, .f32⟩
  | .hbm, ⟨33, _⟩ => ⟨S32768x8x128, .f32⟩
  | .hbm, ⟨34, _⟩ => ⟨S_, .i32⟩
  | .hbm, ⟨35, _⟩ => ⟨S32768x8x1, .i32⟩
  | .hbm, ⟨36, _⟩ => ⟨S32768x8x1, .i1⟩
  | .hbm, ⟨37, _⟩ => ⟨S_, .i32⟩
  | .hbm, ⟨38, _⟩ => ⟨S32768x8x1, .i32⟩
  | .hbm, ⟨39, _⟩ => ⟨S32768x8x1, .i32⟩
  | .hbm, ⟨40, _⟩ => ⟨S32768x8x1, .i32⟩
  | .hbm, ⟨41, _⟩ => ⟨S1, .i32⟩
  | .hbm, ⟨42, _⟩ => ⟨S_, .i32⟩
  | .hbm, ⟨43, _⟩ => ⟨S32768x8x1, .i32⟩
  | .hbm, ⟨44, _⟩ => ⟨S32768x8x1, .i1⟩
  | .hbm, ⟨45, _⟩ => ⟨S1x1x1, .i32⟩
  | .hbm, ⟨46, _⟩ => ⟨S32768x8x1, .i32⟩
  | .hbm, ⟨47, _⟩ => ⟨S32768x8x1, .i1⟩
  | .hbm, ⟨48, _⟩ => ⟨S32768x8x1, .i1⟩
  | .hbm, ⟨49, _⟩ => ⟨S_, .i1⟩
  | .hbm, ⟨50, _⟩ => ⟨S32768x8, .i1⟩
  | .hbm, ⟨51, _⟩ => ⟨S32768x8x128, .f32⟩
  | .hbm, ⟨52, _⟩ => ⟨S32768x8x128, .i1⟩
  | .hbm, ⟨53, _⟩ => ⟨S_, .f32⟩
  | .hbm, ⟨54, _⟩ => ⟨S32768x8x128, .f32⟩
  | .hbm, ⟨55, _⟩ => ⟨S32768x8x128, .f32⟩
  | .hbm, ⟨56, _⟩ => ⟨S32768x128, .f32⟩
  | .hbm, ⟨57, _⟩ => ⟨S1x128, .f32⟩
  | .hbm, ⟨58, _⟩ => ⟨S32768x128, .f32⟩
  | .hbm, ⟨59, _⟩ => ⟨S32768x128, .f32⟩
  | .hbm, ⟨60, _⟩ => ⟨S32768x1, .f32⟩
  | .hbm, ⟨61, _⟩ => ⟨S32768x128, .f32⟩
  | .hbm, ⟨62, _⟩ => ⟨S32768x128, .f32⟩
  | .hbm, ⟨63, _⟩ => ⟨S1x32768x1x128, .f32⟩
  | .hbm, ⟨64, _⟩ => ⟨S1x32768x8x128, .f32⟩
  | .hbm, ⟨65, _⟩ => ⟨S32768x1024, .f32⟩
  | .hbm, ⟨66, _⟩ => ⟨S32768x1024, .f32⟩
  | .hbm, ⟨67, _⟩ => ⟨S32768x1024, .f32⟩
  | .hbm, ⟨68, _⟩ => ⟨S1x1024, .f32⟩
  | .hbm, ⟨69, _⟩ => ⟨S32768x1024, .f32⟩
  | .hbm, ⟨70, _⟩ => ⟨S32768x1024, .f32⟩
  | .hbm, ⟨71, _⟩ => ⟨S32768x1024, .f32⟩
  | .hbm, ⟨72, _⟩ => ⟨S32768x1024, .f32⟩
  | .hbm, ⟨73, _⟩ => ⟨S32768x128, .f32⟩
  | .hbm, ⟨74, _⟩ => ⟨S1x128, .f32⟩
  | .hbm, ⟨75, _⟩ => ⟨S32768x128, .f32⟩
  | .hbm, ⟨76, _⟩ => ⟨S32768x128, .f32⟩
  | .hbm, ⟨77, _⟩ => ⟨S32768x1024, .f32⟩
  | .hbm, ⟨78, _⟩ => ⟨S32768x1024, .f32⟩
  | .hbm, ⟨79, _⟩ => ⟨S_, .f32⟩
  | .hbm, ⟨80, _⟩ => ⟨S32768x1024, .f32⟩
  | .hbm, ⟨81, _⟩ => ⟨S32768x1024, .f32⟩
  | .hbm, ⟨82, _⟩ => ⟨S_, .f32⟩
  | .hbm, ⟨83, _⟩ => ⟨S32768x1024, .f32⟩
  | .hbm, ⟨84, _⟩ => ⟨S32768x1024, .f32⟩
  | .hbm, ⟨85, _⟩ => ⟨S32768x8x128, .f32⟩
  | .hbm, ⟨86, _⟩ => ⟨S32768x8x128, .f32⟩
  | .hbm, ⟨87, _⟩ => ⟨S_, .f32⟩
  | .hbm, ⟨88, _⟩ => ⟨S32768x128, .f32⟩
  | .hbm, ⟨89, _⟩ => ⟨S32768x128, .f32⟩
  | .hbm, ⟨90, _⟩ => ⟨S32768x128, .f32⟩
  | _, _ => ⟨S32768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_1 : Ref sig .tc := ⟨.hbm, 19, rfl⟩
abbrev main_call0_c_2 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_c_3 : Ref sig .tc := ⟨.hbm, 27, rfl⟩
abbrev main_call0_v11 : Ref sig .tc := ⟨.hbm, 28, rfl⟩
abbrev main_call0_v12 : Ref sig .tc := ⟨.hbm, 29, rfl⟩
abbrev main_call0_v13 : Ref sig .tc := ⟨.hbm, 30, rfl⟩
abbrev main_call0_cst : Ref sig .tc := ⟨.hbm, 31, rfl⟩
abbrev main_call0_v14 : Ref sig .tc := ⟨.hbm, 32, rfl⟩
abbrev main_v1 : Ref sig .tc := ⟨.hbm, 33, rfl⟩
abbrev main_call1_c : Ref sig .tc := ⟨.hbm, 34, rfl⟩
abbrev main_call1_v0 : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_c_1 : Ref sig .tc := ⟨.hbm, 41, rfl⟩
abbrev main_call1_c_2 : Ref sig .tc := ⟨.hbm, 42, rfl⟩
abbrev main_call1_v5 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_v9 : Ref sig .tc := ⟨.hbm, 47, rfl⟩
abbrev main_call1_v10 : Ref sig .tc := ⟨.hbm, 48, rfl⟩
abbrev main_call1_c_3 : Ref sig .tc := ⟨.hbm, 49, rfl⟩
abbrev main_call1_v11 : Ref sig .tc := ⟨.hbm, 50, rfl⟩
abbrev main_call1_v12 : Ref sig .tc := ⟨.hbm, 51, rfl⟩
abbrev main_call1_v13 : Ref sig .tc := ⟨.hbm, 52, rfl⟩
abbrev main_call1_cst : Ref sig .tc := ⟨.hbm, 53, rfl⟩
abbrev main_call1_v14 : Ref sig .tc := ⟨.hbm, 54, rfl⟩
abbrev main_v2 : Ref sig .tc := ⟨.hbm, 55, rfl⟩
abbrev main_v3 : Ref sig .tc := ⟨.hbm, 56, rfl⟩
abbrev main_v4 : Ref sig .tc := ⟨.hbm, 57, rfl⟩
abbrev main_v5 : Ref sig .tc := ⟨.hbm, 58, rfl⟩
abbrev main_v6 : Ref sig .tc := ⟨.hbm, 59, rfl⟩
abbrev main_v7 : Ref sig .tc := ⟨.hbm, 60, rfl⟩
abbrev main_v8 : Ref sig .tc := ⟨.hbm, 61, rfl⟩
abbrev main_v9 : Ref sig .tc := ⟨.hbm, 62, rfl⟩
abbrev main_v10 : Ref sig .tc := ⟨.hbm, 63, rfl⟩
abbrev main_v11 : Ref sig .tc := ⟨.hbm, 64, rfl⟩
abbrev main_v12 : Ref sig .tc := ⟨.hbm, 65, rfl⟩
abbrev main_v13 : Ref sig .tc := ⟨.hbm, 66, rfl⟩
abbrev main_v14 : Ref sig .tc := ⟨.hbm, 67, rfl⟩
abbrev main_v15 : Ref sig .tc := ⟨.hbm, 68, rfl⟩
abbrev main_v16 : Ref sig .tc := ⟨.hbm, 69, rfl⟩
abbrev main_v17 : Ref sig .tc := ⟨.hbm, 70, rfl⟩
abbrev main_v18 : Ref sig .tc := ⟨.hbm, 71, rfl⟩
abbrev main_v19 : Ref sig .tc := ⟨.hbm, 72, rfl⟩
abbrev main_v20 : Ref sig .tc := ⟨.hbm, 73, rfl⟩
abbrev main_v21 : Ref sig .tc := ⟨.hbm, 74, rfl⟩
abbrev main_v22 : Ref sig .tc := ⟨.hbm, 75, rfl⟩
abbrev main_v23 : Ref sig .tc := ⟨.hbm, 76, rfl⟩
abbrev main_v24 : Ref sig .tc := ⟨.hbm, 77, rfl⟩
abbrev main_v25 : Ref sig .tc := ⟨.hbm, 78, rfl⟩
abbrev main_cst : Ref sig .tc := ⟨.hbm, 79, rfl⟩
abbrev main_v26 : Ref sig .tc := ⟨.hbm, 80, rfl⟩
abbrev main_v27 : Ref sig .tc := ⟨.hbm, 81, rfl⟩
abbrev main_cst_0 : Ref sig .tc := ⟨.hbm, 82, rfl⟩
abbrev main_v28 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_cst_1 : Ref sig .tc := ⟨.hbm, 87, rfl⟩
abbrev main_v32 : Ref sig .tc := ⟨.hbm, 88, rfl⟩
abbrev main_v33 : Ref sig .tc := ⟨.hbm, 89, rfl⟩
abbrev main_v34 : Ref sig .tc := ⟨.hbm, 90, rfl⟩

abbrev nD : Nat := 1
abbrev τ : Topo := Topo.v7x

variable {F : FTy → Type} [FloatOps F]

class Facts₀ : Prop where
  bcast_S32768x8_S32768x8x1_0_1 : S32768x8.BroadcastsInDim S32768x8x1 (![0, 1] : Fin 2 → Fin S32768x8x1.rank)
  bcast_S_S32768x8x1 : S_.BroadcastsInDim S32768x8x1 (![] : Fin 0 → Fin S32768x8x1.rank)
  bcast_S1_S1x1x1_2 : S1.BroadcastsInDim S1x1x1 (![2] : Fin 1 → Fin S1x1x1.rank)
  bcast_S1x1x1_S32768x8x1_0_1_2 : S1x1x1.BroadcastsInDim S32768x8x1 (![0, 1, 2] : Fin 3 → Fin S32768x8x1.rank)
  reducesTo_S32768x8x1_S32768x8_d2 : S32768x8x1.ReducesTo [2] S32768x8
  h_S_ : 0 < S_.numel
  bcast_S32768x8_S32768x8x128_0_1 : S32768x8.BroadcastsInDim S32768x8x128 (![0, 1] : Fin 2 → Fin S32768x8x128.rank)
  bcast_S_S32768x8x128 : S_.BroadcastsInDim S32768x8x128 (![] : Fin 0 → Fin S32768x8x128.rank)
  bcast_S128_S1x128_1 : S128.BroadcastsInDim S1x128 (![1] : Fin 1 → Fin S1x128.rank)
  bcast_S1x128_S32768x128_0_1 : S1x128.BroadcastsInDim S32768x128 (![0, 1] : Fin 2 → Fin S32768x128.rank)
  bcast_S32768_S32768x1_0 : S32768.BroadcastsInDim S32768x1 (![0] : Fin 1 → Fin S32768x1.rank)
  bcast_S32768x1_S32768x128_0_1 : S32768x1.BroadcastsInDim S32768x128 (![0, 1] : Fin 2 → Fin S32768x128.rank)
  shapeCasts_S32768x128_S1x32768x1x128 : S32768x128.ShapeCasts S1x32768x1x128
  bcast_S1x32768x1x128_S1x32768x8x128_0_1_2_3 : S1x32768x1x128.BroadcastsInDim S1x32768x8x128 (![0, 1, 2, 3] : Fin 4 → Fin S1x32768x8x128.rank)
  shapeCasts_S1x32768x8x128_S32768x1024 : S1x32768x8x128.ShapeCasts S32768x1024
  shapeCasts_S32768x8x128_S32768x1024 : S32768x8x128.ShapeCasts S32768x1024
  bcast_S1024_S1x1024_1 : S1024.BroadcastsInDim S1x1024 (![1] : Fin 1 → Fin S1x1024.rank)
  bcast_S1x1024_S32768x1024_0_1 : S1x1024.BroadcastsInDim S32768x1024 (![0, 1] : Fin 2 → Fin S32768x1024.rank)
  bcast_S_S32768x1024 : S_.BroadcastsInDim S32768x1024 (![] : Fin 0 → Fin S32768x1024.rank)
  shapeCasts_S32768x1024_S32768x8x128 : S32768x1024.ShapeCasts S32768x8x128
  reducesTo_S32768x8x128_S32768x128_d1 : S32768x8x128.ReducesTo [1] S32768x128
  gather_S32768x8x128_S32768x8x1_S32768x8x128_2_1_0_0_1_2_11128_wf : GatherDims.WF S32768x8x128 S32768x8x1 S32768x8x128 [2] [1] [0] [1] [0] 2 ![1, 1, 128]
  dot_S32768x128_S128x128_S32768x128_1_0_0_1_n_n_wf : DotDims.WF S32768x128 S128x128 S32768x128 [1] [0] [0] [1] [] []
  dot_S32768x1024_S1024x1024_S32768x1024_1_0_0_1_n_n_wf : DotDims.WF S32768x1024 S1024x1024 S32768x1024 [1] [0] [0] [1] [] []
  dot_S32768x1024_S1024x128_S32768x128_1_0_0_1_n_n_wf : DotDims.WF S32768x1024 S1024x128 S32768x128 [1] [0] [0] [1] [] []

variable [Facts₀]

def gather_S32768x8x128_S32768x8x1_S32768x8x128_2_1_0_0_1_2_11128 : GatherDims S32768x8x128 S32768x8x1 S32768x8x128 where
  offsetDims := [2]
  collapsedSliceDims := [1]
  operandBatchingDims := [0]
  startIndicesBatchingDims := [0]
  startIndexMap := [1]
  indexVectorDim := 2
  sliceSizes := ![1, 1, 128]
  wf := gather_S32768x8x128_S32768x8x1_S32768x8x128_2_1_0_0_1_2_11128_wf
def dot_S32768x128_S128x128_S32768x128_1_0_0_1_n_n : DotDims S32768x128 S128x128 S32768x128 where
  lhsContracting := [1]
  rhsContracting := [0]
  lhsNonContracting := [0]
  rhsNonContracting := [1]
  lhsBatch := []
  rhsBatch := []
  wf := dot_S32768x128_S128x128_S32768x128_1_0_0_1_n_n_wf
def dot_S32768x1024_S1024x1024_S32768x1024_1_0_0_1_n_n : DotDims S32768x1024 S1024x1024 S32768x1024 where
  lhsContracting := [1]
  rhsContracting := [0]
  lhsNonContracting := [0]
  rhsNonContracting := [1]
  lhsBatch := []
  rhsBatch := []
  wf := dot_S32768x1024_S1024x1024_S32768x1024_1_0_0_1_n_n_wf
def dot_S32768x1024_S1024x128_S32768x128_1_0_0_1_n_n : DotDims S32768x1024 S1024x128 S32768x128 where
  lhsContracting := [1]
  rhsContracting := [0]
  lhsNonContracting := [0]
  rhsNonContracting := [1]
  lhsBatch := []
  rhsBatch := []
  wf := dot_S32768x1024_S1024x128_S32768x128_1_0_0_1_n_n_wf

class Facts : Prop extends Facts₀ where

variable [Facts]
-- ==== Proof.Cell.lean ====
/-
  The cell of one tree node, as a function of that node's own data and the shared weights, over the extended reals.

  A node carries an input row x (128 features), a mask value, and for each of its 8 child slots j the hidden row
  nh j and the cell row nc j of the child the slot's position word names (128 features each); the 8 rows are laid
  side by side as one row of 1024, slot j at positions 128 j … 128 j + 127.  With
      fIn f     = (Σ_i x i · Wfin i f + bfin f) · mask,
      gate k    = σ( Σ_q nh q · Wf q k + bf k + fIn (k mod 128) + fIn (k mod 128) )      (the input term is added twice),
      cell f    = Σ_j gate (128 j + f) · nc (128 j + f),
      hidden f  = (Σ_q nh q · Waggr q f + baggr f) · tanh (cell f),
  σ the logistic function 1 / (1 + e^(-t)).  Both programs compute (hidden, cell) of every node; the sum over the
  eight slots is written here as the left-nested sum of its eight terms.
-/
import Idealize.ShloMosaic.PureOps.Ideal
import Idealize.ShloMosaic.Lib.ValueIdx

noncomputable section

namespace Cert.ChildSum

open Idealize.ShloMosaic

/-- The child slot a position word names when the word is one of 0 … 7 (its value modulo 8 otherwise). -/
def childOf (w : BitVec 32) : Fin 8 := ⟨w.toNat % 8, Nat.mod_lt _ (by decide)⟩

theorem childOf_val {w : BitVec 32} (h : w.toNat < 8) : (childOf w).val = w.toNat := Nat.mod_eq_of_lt h

/-- Position 128 j + f of the row of 1024: slot j, feature f. -/
def flat (j : Fin 8) (f : Fin 128) : Fin 1024 := ⟨j.val * 128 + f.val, by have := j.isLt; have := f.isLt; omega⟩
/-- The slot of a position of the row of 1024. -/
def slotOf (k : Fin 1024) : Fin 8 := ⟨k.val / 128, by have := k.isLt; omega⟩
/-- The feature of a position of the row of 1024. -/
def featOf (k : Fin 1024) : Fin 128 := ⟨k.val % 128, Nat.mod_lt _ (by decide)⟩

theorem slotOf_flat (j : Fin 8) (f : Fin 128) : slotOf (flat j f) = j := by
  apply Fin.ext; show (j.val * 128 + f.val) / 128 = j.val; have := f.isLt; omega
theorem featOf_flat (j : Fin 8) (f : Fin 128) : featOf (flat j f) = f := by
  apply Fin.ext; show (j.val * 128 + f.val) % 128 = f.val; have := f.isLt; omega
theorem flat_slotOf_featOf (k : Fin 1024) : flat (slotOf k) (featOf k) = k := by
  apply Fin.ext; show k.val / 128 * 128 + k.val % 128 = k.val; omega

/-- One of eight values by a slot. -/
def pick8 {α : Type} (c : Fin 8) (a0 a1 a2 a3 a4 a5 a6 a7 : α) : α :=
  match c with
  | ⟨0, _⟩ => a0 | ⟨1, _⟩ => a1 | ⟨2, _⟩ => a2 | ⟨3, _⟩ => a3
  | ⟨4, _⟩ => a4 | ⟨5, _⟩ => a5 | ⟨6, _⟩ => a6 | ⟨7, _⟩ => a7
  | ⟨_ + 8, h⟩ => absurd h (Nat.not_lt.2 (Nat.le_add_left _ _))

/-- Picking among the values of one function at the eight slots is the function at the slot. -/
theorem pick8_apply {α : Type} (g : Fin 8 → α) (c : Fin 8) : pick8 c (g 0) (g 1) (g 2) (g 3) (g 4) (g 5) (g 6) (g 7) = g c := by
  match c with
  | ⟨0, _⟩ => rfl | ⟨1, _⟩ => rfl | ⟨2, _⟩ => rfl | ⟨3, _⟩ => rfl
  | ⟨4, _⟩ => rfl | ⟨5, _⟩ => rfl | ⟨6, _⟩ => rfl | ⟨7, _⟩ => rfl
  | ⟨_ + 8, h⟩ => exact absurd h (Nat.not_lt.2 (Nat.le_add_left _ _))

/-- One node's data: its input row, its mask value, and its children's hidden and cell rows, already chosen by the
    position words and laid side by side. -/
structure Node where
  x : Fin 128 → EReal
  mask : EReal
  nh : Fin 1024 → EReal
  nc : Fin 1024 → EReal

/-- The weights every node shares. -/
structure Params where
  Wfin : Fin 128 → Fin 128 → EReal
  bfin : Fin 128 → EReal
  Waggr : Fin 1024 → Fin 128 → EReal
  baggr : Fin 128 → EReal
  Wf : Fin 1024 → Fin 1024 → EReal
  bf : Fin 1024 → EReal

/-- The node's own contribution to every forget gate: the masked linear image of its input row. -/
def fIn (p : Params) (n : Node) (f : Fin 128) : EReal :=
  ((∑ i : Fin 128, n.x i * p.Wfin i f) + p.bfin f) * n.mask

/-- The argument of forget gate k: the linear image of the children's hidden rows, its bias, and the node's own
    contribution twice. -/
def gateArg (p : Params) (n : Node) (k : Fin 1024) : EReal :=
  (((∑ q : Fin 1024, n.nh q * p.Wf q k) + p.bf k) + fIn p n (featOf k)) + fIn p n (featOf k)

/-- Slot j's share of cell feature f: its forget gate times the child's cell value. -/
def term (p : Params) (n : Node) (j : Fin 8) (f : Fin 128) : EReal :=
  Ideal.logistic (gateArg p n (flat j f)) * n.nc (flat j f)

/-- The node's cell row: the eight slots' shares, summed from slot 0 on. -/
def cell (p : Params) (n : Node) (f : Fin 128) : EReal :=
  term p n 0 f + term p n 1 f + term p n 2 f + term p n 3 f + term p n 4 f + term p n 5 f + term p n 6 f + term p n 7 f

/-- The node's hidden row: the output gate (a linear image of the children's hidden rows) times tanh of the cell row. -/
def hidden (p : Params) (n : Node) (f : Fin 128) : EReal :=
  ((∑ q : Fin 1024, n.nh q * p.Waggr q f) + p.baggr f) * Ideal.tanh (cell p n f)

/-! ## The two results as functions of the eleven argument arrays -/

open Idealize.ShloMosaic.ValueIdx

/-- The shared weights read off the weight arrays. -/
def arrParams (A5 : FVec Ideal ⟨2, ![128, 128]⟩ .f32) (A6 : FVec Ideal ⟨1, ![128]⟩ .f32) (A7 : FVec Ideal ⟨2, ![1024, 128]⟩ .f32)
    (A8 : FVec Ideal ⟨1, ![128]⟩ .f32) (A9 : FVec Ideal ⟨2, ![1024, 1024]⟩ .f32) (A10 : FVec Ideal ⟨1, ![1024]⟩ .f32) : Params where
  Wfin := fun i f => A5 (ix2 i f)
  bfin := fun f => A6 (ix1 f)
  Waggr := fun q f => A7 (ix2 q f)
  baggr := fun f => A8 (ix1 f)
  Wf := fun q k => A9 (ix2 q k)
  bf := fun k => A10 (ix1 k)

/-- Node b's data read off the arrays: its input row, its mask value, and in slot j the rows of the child its position
    word pos[b, j] names. -/
def arrNode (A0 : FVec Ideal ⟨2, ![32768, 128]⟩ .f32) (A1 : FVec Ideal ⟨1, ![32768]⟩ .f32) (A2 A3 : FVec Ideal ⟨3, ![32768, 8, 128]⟩ .f32)
    (A4 : IVec ⟨2, ![32768, 8]⟩ 32) (b : Fin 32768) : Node where
  x := fun i => A0 (ix2 b i)
  mask := A1 (ix1 b)
  nh := fun q => A2 (ix3 b (childOf (A4 (ix2 b (slotOf q)))) (featOf q))
  nc := fun q => A3 (ix3 b (childOf (A4 (ix2 b (slotOf q)))) (featOf q))

/-- The cell rows of all nodes. -/
def cellArr (A0 : FVec Ideal ⟨2, ![32768, 128]⟩ .f32) (A1 : FVec Ideal ⟨1, ![32768]⟩ .f32) (A2 A3 : FVec Ideal ⟨3, ![32768, 8, 128]⟩ .f32)
    (A4 : IVec ⟨2, ![32768, 8]⟩ 32) (A5 : FVec Ideal ⟨2, ![128, 128]⟩ .f32) (A6 : FVec Ideal ⟨1, ![128]⟩ .f32) (A7 : FVec Ideal ⟨2, ![1024, 128]⟩ .f32)
    (A8 : FVec Ideal ⟨1, ![128]⟩ .f32) (A9 : FVec Ideal ⟨2, ![1024, 1024]⟩ .f32) (A10 : FVec Ideal ⟨1, ![1024]⟩ .f32) :
    FVec Ideal ⟨2, ![32768, 128]⟩ .f32 :=
  fun i => cell (arrParams A5 A6 A7 A8 A9 A10) (arrNode A0 A1 A2 A3 A4 (i 0)) (i 1)

/-- The hidden rows of all nodes. -/
def hiddenArr (A0 : FVec Ideal ⟨2, ![32768, 128]⟩ .f32) (A1 : FVec Ideal ⟨1, ![32768]⟩ .f32) (A2 A3 : FVec Ideal ⟨3, ![32768, 8, 128]⟩ .f32)
    (A4 : IVec ⟨2, ![32768, 8]⟩ 32) (A5 : FVec Ideal ⟨2, ![128, 128]⟩ .f32) (A6 : FVec Ideal ⟨1, ![128]⟩ .f32) (A7 : FVec Ideal ⟨2, ![1024, 128]⟩ .f32)
    (A8 : FVec Ideal ⟨1, ![128]⟩ .f32) (A9 : FVec Ideal ⟨2, ![1024, 1024]⟩ .f32) (A10 : FVec Ideal ⟨1, ![1024]⟩ .f32) :
    FVec Ideal ⟨2, ![32768, 128]⟩ .f32 :=
  fun i => hidden (arrParams A5 A6 A7 A8 A9 A10) (arrNode A0 A1 A2 A3 A4 (i 0)) (i 1)

end Cert.ChildSum

end
-- ==== Proof.RefGather.lean ====
/-
  The reference chooses each slot's child by an indexed read along the slot axis: for node b, slot j and feature f it
  reads the operand at (b, s, f), where s is the position word at (b, j) taken as a signed number and clamped to
  0 … 7.  When the word is one of 0 … 7 already, the clamp does nothing and s is the child the word names.
-/
import proofs.«405310_j88210038325568_3_alg».proof.Proof.Gen.ReferenceIdeal
import proofs.«405310_j88210038325568_3_alg».proof.Proof.Cell
import Idealize.ShloMosaic.Lib.ValueIdx
import Idealize.ShloMosaic.Lib.Pipeline.Value

noncomputable section

namespace Cert.ReferenceIdeal.RefGather

open Cert.ReferenceIdeal Cert.ReferenceIdeal.Gen Cert.ChildSum Idealize.ShloMosaic Idealize.ShloMosaic.ValueIdx

/-- The indexed read along the slot axis at (b, j, f): the operand at (b, child, f), the child the start word at
    (b, j) names, when that word is one of 0 … 7. -/
theorem gather_slot {α : Type} (x : S32768x8x128.Idx → α) (idx : IVec S32768x8x1 32) (b : Fin 32768) (j : Fin 8) (f : Fin 128)
    (h : (idx (ix3 b j 0)).toNat < 8) :
    Host.gather gather_S32768x8x128_S32768x8x1_S32768x8x128_2_1_0_0_1_2_11128 x idx (ix3 b j f)
      = x (ix3 b (childOf (idx (ix3 b j 0))) f) := by
  unfold Host.gather
  congr 1
  funext a
  refine Fin.ext ?_
  match a with
  | ⟨0, _⟩ =>
    -- the node axis is the batching axis: no start, the result's node coordinate, no offset
    have hs : gather_S32768x8x128_S32768x8x1_S32768x8x128_2_1_0_0_1_2_11128.start (ix3 b j f) idx 0 = 0 := rfl
    have hb : gather_S32768x8x128_S32768x8x1_S32768x8x128_2_1_0_0_1_2_11128.batchCoord (ix3 b j f) 0 = b.val := rfl
    have ho : gather_S32768x8x128_S32768x8x1_S32768x8x128_2_1_0_0_1_2_11128.offCoord (ix3 b j f) 0 = 0 := rfl
    show gather_S32768x8x128_S32768x8x1_S32768x8x128_2_1_0_0_1_2_11128.start (ix3 b j f) idx 0
      + gather_S32768x8x128_S32768x8x1_S32768x8x128_2_1_0_0_1_2_11128.batchCoord (ix3 b j f) 0
      + gather_S32768x8x128_S32768x8x1_S32768x8x128_2_1_0_0_1_2_11128.offCoord (ix3 b j f) 0 = b.val
    rw [hs, hb, ho]; omega
  | ⟨1, _⟩ =>
    -- the slot axis: the clamped start word, no batch or offset coordinate
    have hs : gather_S32768x8x128_S32768x8x1_S32768x8x128_2_1_0_0_1_2_11128.start (ix3 b j f) idx 1
        = min (idx (ix3 b j 0)).toInt.toNat (8 - 1) := by
      unfold GatherDims.start
      rw [dif_pos (show (1 : Fin S32768x8x128.rank) ∈ gather_S32768x8x128_S32768x8x1_S32768x8x128_2_1_0_0_1_2_11128.startIndexMap by decide)]
      -- the start word is read at the result's node and slot coordinates, component 0 of the index vector
      have hsi : gather_S32768x8x128_S32768x8x1_S32768x8x128_2_1_0_0_1_2_11128.siIdx (ix3 b j f)
          ⟨List.idxOf (1 : Fin S32768x8x128.rank) gather_S32768x8x128_S32768x8x1_S32768x8x128_2_1_0_0_1_2_11128.startIndexMap,
            List.idxOf_lt_length_iff.2 (by decide)⟩ = ix3 b j 0 := by
        funext c
        refine Fin.ext ?_
        match c with
        | ⟨0, _⟩ => rfl
        | ⟨1, _⟩ => rfl
        | ⟨2, _⟩ => rfl
      rw [hsi]
      rfl
    have hb : gather_S32768x8x128_S32768x8x1_S32768x8x128_2_1_0_0_1_2_11128.batchCoord (ix3 b j f) 1 = 0 := rfl
    have ho : gather_S32768x8x128_S32768x8x1_S32768x8x128_2_1_0_0_1_2_11128.offCoord (ix3 b j f) 1 = 0 := rfl
    show gather_S32768x8x128_S32768x8x1_S32768x8x128_2_1_0_0_1_2_11128.start (ix3 b j f) idx 1
      + gather_S32768x8x128_S32768x8x1_S32768x8x128_2_1_0_0_1_2_11128.batchCoord (ix3 b j f) 1
      + gather_S32768x8x128_S32768x8x1_S32768x8x128_2_1_0_0_1_2_11128.offCoord (ix3 b j f) 1 = (childOf (idx (ix3 b j 0))).val
    rw [hs, hb, ho, childOf_val h, BitVec.toInt_eq_toNat_of_lt (by omega)]
    simp only [Int.toNat_natCast, Nat.add_zero]
    omega
  | ⟨2, _⟩ =>
    -- the feature axis is the offset axis: no start, no batch coordinate, the result's feature coordinate
    have hs : gather_S32768x8x128_S32768x8x1_S32768x8x128_2_1_0_0_1_2_11128.start (ix3 b j f) idx 2 = 0 := rfl
    have hb : gather_S32768x8x128_S32768x8x1_S32768x8x128_2_1_0_0_1_2_11128.batchCoord (ix3 b j f) 2 = 0 := rfl
    have ho : gather_S32768x8x128_S32768x8x1_S32768x8x128_2_1_0_0_1_2_11128.offCoord (ix3 b j f) 2 = f.val := rfl
    show gather_S32768x8x128_S32768x8x1_S32768x8x128_2_1_0_0_1_2_11128.start (ix3 b j f) idx 2
      + gather_S32768x8x128_S32768x8x1_S32768x8x128_2_1_0_0_1_2_11128.batchCoord (ix3 b j f) 2
      + gather_S32768x8x128_S32768x8x1_S32768x8x128_2_1_0_0_1_2_11128.offCoord (ix3 b j f) 2 = f.val
    rw [hs, hb, ho]; omega

end Cert.ReferenceIdeal.RefGather

end
-- ==== Proof.RefCell.lean ====
/-
  The reference computes the cell and hidden rows of every node with whole-array operations: the indexed reads of the
  children's rows, three matrix products, bias and mask broadcasts, the node's own gate contribution tiled over the
  eight slots, the logistic function spelt 1 / (1 + e^(-t)), and a sum over the slot axis started from zero.  Read at
  node b and feature f, stage by stage, its two results are the cell and hidden values of node b's data: the sum from
  zero over the eight slots is the left-nested sum of the eight terms, and where every position word is one of 0 … 7
  the indexed read takes the named child and its out-of-range fill never applies.
-/
import proofs.«405310_j88210038325568_3_alg».proof.Proof.RefRead
import proofs.«405310_j88210038325568_3_alg».proof.Proof.RefGather
import proofs.«405310_j88210038325568_3_alg».proof.Proof.Cell
import Idealize.ShloMosaic.Lib.ValueIdx
import Idealize.ShloMosaic.Lib.Pipeline.Value
import Idealize.ShloMosaic.PureOps.Ideal.Laws
import Idealize.ShloMosaic.Lib.IdealHost
import Idealize.ShloMosaic.PureOps.Reduce
import Mathlib.Algebra.BigOperators.Fin

noncomputable section

namespace Cert.ReferenceIdeal.RefCell

open Cert.ReferenceIdeal Cert.ReferenceIdeal.Gen Cert.ReferenceIdeal.ReadP Cert.ChildSum Idealize.ShloMosaic Idealize.ShloMosaic.ValueIdx
open Cert.ReferenceIdeal.RefGather

/-! ## Position words: one of 0 … 7, so every range test of the indexed read passes -/

/-- A word that is one of 0 … 7 is not negative as a signed number, and lies in 0 … 7 as a signed number. -/
theorem small_word_fin : ∀ n : Fin 8,
    IntOp.cmpi .slt (BitVec.ofNat 32 n.val) 0#32 = 0#1
      ∧ IntOp.andi (IntOp.cmpi .sge (BitVec.ofNat 32 n.val) 0#32) (IntOp.cmpi .sle (BitVec.ofNat 32 n.val) 7#32) = 1#1 := by
  decide

theorem small_word {w : BitVec 32} (h : w.toNat < 8) :
    IntOp.cmpi .slt w 0#32 = 0#1 ∧ IntOp.andi (IntOp.cmpi .sge w 0#32) (IntOp.cmpi .sle w 7#32) = 1#1 := by
  have hw : w = BitVec.ofNat 32 (⟨w.toNat, h⟩ : Fin 8).val :=
    BitVec.eq_of_toNat_eq (by rw [BitVec.toNat_ofNat]; show w.toNat = w.toNat % 2 ^ 32; omega)
  rw [hw]
  exact small_word_fin _

/-- A conjunction of bits that are all set, started from a set bit, is set. -/
theorem foldl_and_one {ι : Type} (x : ι → BitVec 1) (hx : ∀ i, x i = 1#1) (l : List ι) :
    l.foldl (fun r i => IntOp.andi r (x i)) 1#1 = 1#1 := by
  induction l with
  | nil => rfl
  | cons a l ih => rw [List.foldl_cons, hx a]; exact ih

/-- The position word the reference reads at (b, j, ·) is one of 0 … 7. -/
theorem word_lt (A4 : IVec S32768x8 32) (hpos : ∀ (b : Fin 32768) (j : Fin 8), (A4 (ix2 b j)).toNat < 8)
    (i : S32768x8x1.Idx) : (val_main_v0 (F := Ideal) A4 i).toNat < 8 := by
  rw [val_main_v0_apply]
  have e := eq_ix2 (idx_main_v0 i)
  rw [e]
  exact hpos _ _

/-- The word is not negative, so the wrap-around of negative positions leaves it as it is. -/
theorem call0_v4 (A4 : IVec S32768x8 32) (hpos : ∀ (b : Fin 32768) (j : Fin 8), (A4 (ix2 b j)).toNat < 8)
    (i : S32768x8x1.Idx) : val_main_call0_v4 (F := Ideal) A4 i = val_main_v0 (F := Ideal) A4 i := by
  rw [val_main_call0_v4_apply, val_main_call0_v1_apply, val_main_call0_v0_apply, val_main_call0_c_apply,
    (small_word (word_lt A4 hpos i)).1, select_zero]

/-- The word passes both range tests. -/
theorem call0_v10 (A4 : IVec S32768x8 32) (hpos : ∀ (b : Fin 32768) (j : Fin 8), (A4 (ix2 b j)).toNat < 8)
    (i : S32768x8x1.Idx) : val_main_call0_v10 (F := Ideal) A4 i = 1#1 := by
  rw [val_main_call0_v10_apply, val_main_call0_v6_apply, val_main_call0_v9_apply, call0_v4 A4 hpos i,
    val_main_call0_v5_apply, val_main_call0_c_2_apply, val_main_call0_v8_apply, val_main_call0_v7_apply,
    val_main_call0_c_1_apply]
  exact (small_word (word_lt A4 hpos i)).2

/-- So the conjunction over the index vector's one component is set at every (b, j). -/
theorem call0_v11 (A4 : IVec S32768x8 32) (hpos : ∀ (b : Fin 32768) (j : Fin 8), (A4 (ix2 b j)).toNat < 8)
    (p : S32768x8.Idx) : val_main_call0_v11 (F := Ideal) A4 p = 1#1 := by
  unfold val_main_call0_v11
  rw [Host.reduce_eq_foldl]
  exact foldl_and_one _ (call0_v10 A4 hpos) _

/-- The indexed read of an operand at (b, j, f): the operand at the child slot j's word names; the fill is never taken. -/
theorem main_v1 (X : FVec Ideal S32768x8x128 .f32) (A4 : IVec S32768x8 32)
    (hpos : ∀ (b : Fin 32768) (j : Fin 8), (A4 (ix2 b j)).toNat < 8) (b : Fin 32768) (j : Fin 8) (f : Fin 128) :
    val_main_v1 (F := Ideal) X A4 (ix3 b j f) = X (ix3 b (childOf (A4 (ix2 b j))) f) := by
  have hw : val_main_call0_v4 (F := Ideal) A4 (ix3 b j 0) = A4 (ix2 b j) := by
    rw [call0_v4 A4 hpos, val_main_v0_apply]
    exact congrArg A4 (funext fun a => Fin.ext (by match a with | ⟨0, _⟩ => rfl | ⟨1, _⟩ => rfl))
  rw [val_main_v1_apply, val_main_call0_v13_apply, call0_v11 A4 hpos, select_one]
  unfold val_main_call0_v12
  refine (gather_slot X (val_main_call0_v4 (F := Ideal) A4) b j f (by rw [hw]; exact hpos b j)).trans ?_
  rw [hw]

/-- The second indexed read is the same operation on the other operand. -/
theorem main_v2 (X : FVec Ideal S32768x8x128 .f32) (A4 : IVec S32768x8 32)
    (hpos : ∀ (b : Fin 32768) (j : Fin 8), (A4 (ix2 b j)).toNat < 8) (b : Fin 32768) (j : Fin 8) (f : Fin 128) :
    val_main_v2 (F := Ideal) X A4 (ix3 b j f) = X (ix3 b (childOf (A4 (ix2 b j))) f) := by
  show val_main_v1 (F := Ideal) X A4 (ix3 b j f) = _
  exact main_v1 X A4 hpos b j f

/-! ## The children's hidden rows side by side -/

/-- Position q of row b of the [32768 × 1024] view is slot q / 128, feature q mod 128 of node b. -/
theorem idx13 (b : Fin 32768) (q : Fin 1024) : idx_main_v13 (ix2 b q) = ix3 b (slotOf q) (featOf q) := by
  funext a
  refine Fin.ext ?_
  have hq := q.isLt
  match a with
  | ⟨0, _⟩ => show (b.val * 1024 + q.val) / 1024 = b.val; omega
  | ⟨1, _⟩ => show (b.val * 1024 + q.val) / 128 % 8 = q.val / 128; omega
  | ⟨2, _⟩ => show (b.val * 1024 + q.val) % 128 = q.val % 128; omega

theorem main_v13 (A2 : FVec Ideal S32768x8x128 .f32) (A4 : IVec S32768x8 32)
    (hpos : ∀ (b : Fin 32768) (j : Fin 8), (A4 (ix2 b j)).toNat < 8) (b : Fin 32768) (q : Fin 1024) :
    val_main_v13 (F := Ideal) A2 A4 (ix2 b q) = A2 (ix3 b (childOf (A4 (ix2 b (slotOf q)))) (featOf q)) := by
  rw [val_main_v13_apply, idx13, main_v1 A2 A4 hpos]

/-! ## The node's own gate contribution, and its tiling over the eight slots -/

theorem main_v9 (A0 : FVec Ideal S32768x128 .f32) (A1 : FVec Ideal S32768 .f32) (A5 : FVec Ideal S128x128 .f32)
    (A6 : FVec Ideal S128 .f32) (b : Fin 32768) (f : Fin 128) :
    val_main_v9 (F := Ideal) A0 A1 A5 A6 (ix2 b f)
      = ((∑ i : Fin 128, A0 (ix2 b i) * A5 (ix2 i f)) + A6 (ix1 f)) * A1 (ix1 b) := by
  rw [val_main_v9_apply, val_main_v6_apply, val_main_v3_apply, val_main_v5_apply, val_main_v4_apply, val_main_v8_apply,
    val_main_v7_apply]
  have e1 : ∀ k : Fin 128, lidx_main_v3 (ix2 b f) k = ix2 b k := fun k =>
    funext fun a => Fin.ext (by match a with | ⟨0, _⟩ => rfl | ⟨1, _⟩ => rfl)
  have e2 : ∀ k : Fin 128, ridx_main_v3 (ix2 b f) k = ix2 k f := fun k =>
    funext fun a => Fin.ext (by match a with | ⟨0, _⟩ => rfl | ⟨1, _⟩ => rfl)
  have e3 : idx_main_v4 (idx_main_v5 (ix2 b f)) = ix1 f := funext fun a => Fin.ext (by match a with | ⟨0, _⟩ => rfl)
  have e4 : idx_main_v7 (idx_main_v8 (ix2 b f)) = ix1 b := funext fun a => Fin.ext (by match a with | ⟨0, _⟩ => rfl)
  simp only [e1, e2, e3, e4, Ideal.addf_def, Ideal.mulf_def]

/-- The tiled contribution at position k of row b is the contribution at feature k mod 128. -/
theorem main_v12 (A0 : FVec Ideal S32768x128 .f32) (A1 : FVec Ideal S32768 .f32) (A5 : FVec Ideal S128x128 .f32)
    (A6 : FVec Ideal S128 .f32) (b : Fin 32768) (k : Fin 1024) :
    val_main_v12 (F := Ideal) A0 A1 A5 A6 (ix2 b k) = val_main_v9 (F := Ideal) A0 A1 A5 A6 (ix2 b (featOf k)) := by
  rw [val_main_v12_apply, val_main_v11_apply, val_main_v10_apply]
  refine congrArg (val_main_v9 (F := Ideal) A0 A1 A5 A6) ?_
  funext a
  refine Fin.ext ?_
  have hk := k.isLt
  match a with
  | ⟨0, _⟩ =>
    show ((((0 : Nat) * 32768 + (b.val * 1024 + k.val) / 1024 % 32768) * 1 + 0) * 128 + (b.val * 1024 + k.val) % 128) / 128 = b.val
    omega
  | ⟨1, _⟩ =>
    show ((((0 : Nat) * 32768 + (b.val * 1024 + k.val) / 1024 % 32768) * 1 + 0) * 128 + (b.val * 1024 + k.val) % 128) % 128 = k.val % 128
    omega

/-! ## The forget gates' arguments -/

theorem main_v14 (A2 : FVec Ideal S32768x8x128 .f32) (A4 : IVec S32768x8 32) (A9 : FVec Ideal S1024x1024 .f32)
    (hpos : ∀ (b : Fin 32768) (j : Fin 8), (A4 (ix2 b j)).toNat < 8) (b : Fin 32768) (k : Fin 1024) :
    val_main_v14 (F := Ideal) A2 A4 A9 (ix2 b k)
      = ∑ q : Fin 1024, A2 (ix3 b (childOf (A4 (ix2 b (slotOf q)))) (featOf q)) * A9 (ix2 q k) := by
  rw [val_main_v14_apply]
  refine Finset.sum_congr rfl fun q _ => ?_
  have e1 : lidx_main_v14 (ix2 b k) q = ix2 b q :=
    funext fun a => Fin.ext (by match a with | ⟨0, _⟩ => rfl | ⟨1, _⟩ => rfl)
  have e2 : ridx_main_v14 (ix2 b k) q = ix2 q k :=
    funext fun a => Fin.ext (by match a with | ⟨0, _⟩ => rfl | ⟨1, _⟩ => rfl)
  rw [e1, e2, main_v13 A2 A4 hpos]

theorem main_v16 (A10 : FVec Ideal S1024 .f32) (b : Fin 32768) (k : Fin 1024) :
    val_main_v16 (F := Ideal) A10 (ix2 b k) = A10 (ix1 k) := by
  rw [val_main_v16_apply, val_main_v15_apply]
  exact congrArg A10 (funext fun a => Fin.ext (by match a with | ⟨0, _⟩ => rfl))

/-- The argument of forget gate k of node b. -/
theorem main_v19 (A0 : FVec Ideal S32768x128 .f32) (A1 : FVec Ideal S32768 .f32) (A2 A3 : FVec Ideal S32768x8x128 .f32)
    (A4 : IVec S32768x8 32) (A5 : FVec Ideal S128x128 .f32) (A6 : FVec Ideal S128 .f32) (A7 : FVec Ideal S1024x128 .f32)
    (A8 : FVec Ideal S128 .f32) (A9 : FVec Ideal S1024x1024 .f32) (A10 : FVec Ideal S1024 .f32)
    (hpos : ∀ (b : Fin 32768) (j : Fin 8), (A4 (ix2 b j)).toNat < 8) (b : Fin 32768) (k : Fin 1024) :
    val_main_v19 (F := Ideal) A0 A1 A2 A4 A5 A6 A9 A10 (ix2 b k) = gateArg (arrParams A5 A6 A7 A8 A9 A10) (arrNode A0 A1 A2 A3 A4 b) k := by
  rw [val_main_v19_apply, val_main_v18_apply, val_main_v17_apply, main_v14 A2 A4 A9 hpos, main_v16, main_v12, main_v9]
  rfl

/-! ## The logistic function, spelt 1 / (1 + e^(-t)) -/

theorem logistic_spelt (t : EReal) :
    FloatOps.hostDivf (F := Ideal) (φ := .f32) (FloatOps.ofBits .f32 0x3F800000#32)
      (FloatOps.addf (FloatOps.ofBits .f32 0x3F800000#32) (FloatOps.hostUnary .exp (FloatOps.hostNegf t))) = Ideal.logistic t := by
  simp only [Ideal.hostDivf_def, Ideal.hostUnary_exp_def, Ideal.hostNegf_def, Ideal.negf_def, Ideal.addf_def, Ideal.ofBits_def,
    Ideal.ofBits_one_f32]
  rfl

theorem main_v29 (A0 : FVec Ideal S32768x128 .f32) (A1 : FVec Ideal S32768 .f32) (A2 : FVec Ideal S32768x8x128 .f32)
    (A4 : IVec S32768x8 32) (A5 : FVec Ideal S128x128 .f32) (A6 : FVec Ideal S128 .f32) (A9 : FVec Ideal S1024x1024 .f32)
    (A10 : FVec Ideal S1024 .f32) (i : S32768x1024.Idx) :
    val_main_v29 (F := Ideal) A0 A1 A2 A4 A5 A6 A9 A10 i
      = Ideal.logistic (val_main_v19 (F := Ideal) A0 A1 A2 A4 A5 A6 A9 A10 i) := by
  rw [val_main_v29_apply, val_main_v28_apply, val_main_cst_0_apply, val_main_v27_apply, val_main_v26_apply, val_main_cst_apply,
    val_main_v25_apply, val_main_v24_apply]
  exact logistic_spelt _

/-! ## The eight slots' shares and their sum -/

/-- Slot j, feature f of node b is position 128 j + f of row b of the [32768 × 1024] view. -/
theorem idx30 (b : Fin 32768) (j : Fin 8) (f : Fin 128) : idx_main_v30 (ix3 b j f) = ix2 b (flat j f) := by
  funext a
  refine Fin.ext ?_
  have hj := j.isLt
  have hf := f.isLt
  match a with
  | ⟨0, _⟩ => show ((b.val * 8 + j.val) * 128 + f.val) / 1024 = b.val; omega
  | ⟨1, _⟩ => show ((b.val * 8 + j.val) * 128 + f.val) % 1024 = j.val * 128 + f.val; omega

/-- Slot j's share of cell feature f of node b. -/
theorem main_v31 (A0 : FVec Ideal S32768x128 .f32) (A1 : FVec Ideal S32768 .f32) (A2 A3 : FVec Ideal S32768x8x128 .f32)
    (A4 : IVec S32768x8 32) (A5 : FVec Ideal S128x128 .f32) (A6 : FVec Ideal S128 .f32) (A7 : FVec Ideal S1024x128 .f32)
    (A8 : FVec Ideal S128 .f32) (A9 : FVec Ideal S1024x1024 .f32) (A10 : FVec Ideal S1024 .f32)
    (hpos : ∀ (b : Fin 32768) (j : Fin 8), (A4 (ix2 b j)).toNat < 8) (b : Fin 32768) (j : Fin 8) (f : Fin 128) :
    val_main_v31 (F := Ideal) A0 A1 A2 A3 A4 A5 A6 A9 A10 (ix3 b j f) = term (arrParams A5 A6 A7 A8 A9 A10) (arrNode A0 A1 A2 A3 A4 b) j f := by
  have hn : (arrNode A0 A1 A2 A3 A4 b).nc (flat j f) = A3 (ix3 b (childOf (A4 (ix2 b j))) f) := by
    show A3 (ix3 b (childOf (A4 (ix2 b (slotOf (flat j f))))) (featOf (flat j f))) = _
    rw [slotOf_flat, featOf_flat]
  rw [val_main_v31_apply, val_main_v30_apply, idx30, main_v29, main_v19 A0 A1 A2 A3 A4 A5 A6 A7 A8 A9 A10 hpos,
    main_v2 A3 A4 hpos]
  unfold term
  rw [hn]
  rfl

/-- The cell value of node b at feature f: the sum from zero over the eight slots. -/
theorem cell_at (A0 : FVec Ideal S32768x128 .f32) (A1 : FVec Ideal S32768 .f32) (A2 A3 : FVec Ideal S32768x8x128 .f32)
    (A4 : IVec S32768x8 32) (A5 : FVec Ideal S128x128 .f32) (A6 : FVec Ideal S128 .f32) (A7 : FVec Ideal S1024x128 .f32)
    (A8 : FVec Ideal S128 .f32) (A9 : FVec Ideal S1024x1024 .f32) (A10 : FVec Ideal S1024 .f32)
    (hpos : ∀ (b : Fin 32768) (j : Fin 8), (A4 (ix2 b j)).toNat < 8) (b : Fin 32768) (f : Fin 128) :
    val_main_v32 (F := Ideal) A0 A1 A2 A3 A4 A5 A6 A9 A10 (ix2 b f) = cell (arrParams A5 A6 A7 A8 A9 A10) (arrNode A0 A1 A2 A3 A4 b) f := by
  have e : ∀ k : Fin 8, idx_main_v32 (ix2 b f) k = ix3 b k f := fun k =>
    funext fun a => Fin.ext (by match a with | ⟨0, _⟩ => rfl | ⟨1, _⟩ => rfl | ⟨2, _⟩ => rfl)
  have h0 : val_main_cst_1 (F := Ideal) (Shape.Idx.first h_S_) = 0 := Ideal.ofBits_zero_f32
  rw [val_main_v32_apply, Fin.sum_univ_eight, h0, zero_add]
  simp only [e, main_v31 A0 A1 A2 A3 A4 A5 A6 A7 A8 A9 A10 hpos]
  rfl

/-- The reference's second result is the cell rows of all nodes. -/
theorem cell_ref (A0 : FVec Ideal S32768x128 .f32) (A1 : FVec Ideal S32768 .f32) (A2 A3 : FVec Ideal S32768x8x128 .f32)
    (A4 : IVec S32768x8 32) (A5 : FVec Ideal S128x128 .f32) (A6 : FVec Ideal S128 .f32) (A7 : FVec Ideal S1024x128 .f32)
    (A8 : FVec Ideal S128 .f32) (A9 : FVec Ideal S1024x1024 .f32) (A10 : FVec Ideal S1024 .f32)
    (hpos : ∀ (b : Fin 32768) (j : Fin 8), (A4 (ix2 b j)).toNat < 8) :
    val_main_v32 (F := Ideal) A0 A1 A2 A3 A4 A5 A6 A9 A10 = cellArr A0 A1 A2 A3 A4 A5 A6 A7 A8 A9 A10 := by
  funext i
  obtain ⟨b, f, rfl⟩ : ∃ (b : Fin 32768) (f : Fin 128), i = ix2 b f := ⟨i 0, i 1, eq_ix2 i⟩
  exact cell_at A0 A1 A2 A3 A4 A5 A6 A7 A8 A9 A10 hpos b f

/-- The reference's first result is the hidden rows of all nodes. -/
theorem hidden_ref (A0 : FVec Ideal S32768x128 .f32) (A1 : FVec Ideal S32768 .f32) (A2 A3 : FVec Ideal S32768x8x128 .f32)
    (A4 : IVec S32768x8 32) (A5 : FVec Ideal S128x128 .f32) (A6 : FVec Ideal S128 .f32) (A7 : FVec Ideal S1024x128 .f32)
    (A8 : FVec Ideal S128 .f32) (A9 : FVec Ideal S1024x1024 .f32) (A10 : FVec Ideal S1024 .f32)
    (hpos : ∀ (b : Fin 32768) (j : Fin 8), (A4 (ix2 b j)).toNat < 8) :
    val_main_v34 (F := Ideal) A0 A1 A2 A3 A4 A5 A6 A7 A8 A9 A10 = hiddenArr A0 A1 A2 A3 A4 A5 A6 A7 A8 A9 A10 := by
  funext i
  obtain ⟨b, f, rfl⟩ : ∃ (b : Fin 32768) (f : Fin 128), i = ix2 b f := ⟨i 0, i 1, eq_ix2 i⟩
  have e1 : ∀ q : Fin 1024, lidx_main_v20 (ix2 b f) q = ix2 b q := fun q =>
    funext fun a => Fin.ext (by match a with | ⟨0, _⟩ => rfl | ⟨1, _⟩ => rfl)
  have e2 : ∀ q : Fin 1024, ridx_main_v20 (ix2 b f) q = ix2 q f := fun q =>
    funext fun a => Fin.ext (by match a with | ⟨0, _⟩ => rfl | ⟨1, _⟩ => rfl)
  have e3 : idx_main_v21 (idx_main_v22 (ix2 b f)) = ix1 f := funext fun a => Fin.ext (by match a with | ⟨0, _⟩ => rfl)
  rw [val_main_v34_apply, val_main_v33_apply, cell_at A0 A1 A2 A3 A4 A5 A6 A7 A8 A9 A10 hpos b f, val_main_v23_apply,
    val_main_v20_apply, val_main_v22_apply, val_main_v21_apply]
  simp only [e1, e2, e3, main_v13 A2 A4 hpos]
  rfl

end Cert.ReferenceIdeal.RefCell

end
-- ==== Proof.KernelGather.lean ====
/-
  The kernel gathers a node's children without an indexed read: for each slot value d = 0 … 7 it multiplies child d's
  row by the 0/1 indicator [pos = d] and adds the eight products up from zero.  When the position word is one of
  0 … 7 exactly one indicator is 1, and 0 · a = 0, 1 · a = a, 0 + a = a hold for every extended real a, so the sum
  is the row of the child the word names.  Read at row r and position k = 128 j + f of the row of 1024, the
  accumulated slab is therefore child pos[r, j]'s value at (r, f).
-/
import proofs.«405310_j88210038325568_3_alg».proof.Proof.Gen.KernelIdeal.Skeleton
import proofs.«405310_j88210038325568_3_alg».proof.Proof.Cell
import Idealize.ShloMosaic.Lib.ValueIdx
import Idealize.ShloMosaic.Lib.Pipeline.Value
import Idealize.ShloMosaic.PureOps.Ideal.Laws

noncomputable section

namespace Cert.KernelIdeal.Gather

open Cert.KernelIdeal Cert.KernelIdeal.Gen Cert.ChildSum Idealize.ShloMosaic Idealize.ShloMosaic.ValueIdx

/-! ## The indicator of a slot value -/

/-- The 0/1 indicator of w = d as an extended real, in the form the kernel computes it: the one-bit comparison widened
    to 32 bits and read as a signed integer. -/
def ind (w d : BitVec 32) : EReal := ((((IntOp.cmpi .eq w d).setWidth 32).toInt : ℝ) : EReal)

/-- The indicator of a word against itself is 1. -/
theorem ind_self (d : BitVec 32) : ind d d = 1 := by
  unfold ind IntOp.cmpi
  simp

/-- The indicator of a word against a different word is 0. -/
theorem ind_ne {w d : BitVec 32} (h : w ≠ d) : ind w d = 0 := by
  have hb : (w == d) = false := by simpa using h
  unfold ind IntOp.cmpi
  simp [hb]

/-- The indicator is 1 where the words agree and 0 elsewhere. -/
theorem ind_eq (w d : BitVec 32) : ind w d = if w = d then 1 else 0 := by
  by_cases h : w = d
  · subst h; rw [ind_self, if_pos rfl]
  · rw [ind_ne h, if_neg h]

/-- The masked sum of eight values by the indicators of the eight slot values, added up from zero, is the value the
    word names: exactly one indicator is 1, and 0 · a = 0, 1 · a = a, 0 + a = a for every extended real a. -/
theorem masked_sum (w : BitVec 32) (hw : w.toNat < 8) (a0 a1 a2 a3 a4 a5 a6 a7 : EReal) :
    0 + ind w 0#32 * a0 + ind w 1#32 * a1 + ind w 2#32 * a2 + ind w 3#32 * a3 + ind w 4#32 * a4 + ind w 5#32 * a5
        + ind w 6#32 * a6 + ind w 7#32 * a7
      = pick8 (childOf w) a0 a1 a2 a3 a4 a5 a6 a7 := by
  obtain ⟨n, hn, rfl⟩ : ∃ n : Nat, n < 8 ∧ w = BitVec.ofNat 32 n := ⟨w.toNat, hw, by simp⟩
  interval_cases n
  · show _ = a0; simp [ind_eq]
  · show _ = a1; simp [ind_eq]
  · show _ = a2; simp [ind_eq]
  · show _ = a3; simp [ind_eq]
  · show _ = a4; simp [ind_eq]
  · show _ = a5; simp [ind_eq]
  · show _ = a6; simp [ind_eq]
  · show _ = a7; simp [ind_eq]

/-! ## An indicator column and a child slice, spread over the 8 × 128 positions of a row -/

/-- The indicator column of slot value d, spread along the features: at (r, j, f) it is the indicator of
    pos[r, j] = d. -/
theorem mask_apply (v1 : IVec S512x8 32) (d : BitVec 32) (r : Fin 512) (j : Fin 8) (f : Fin 128) :
    broadcastTo S512x8x128 (shapeCast S512x8x1 (sitofp (F := Ideal) .f32 (extui 32 (cmpi .eq v1 (broadcast S512x8 d)) natLt_1_32))
      shapeCasts_S512x8_S512x8x1) broadcasts_S512x8x1_S512x8x128 (ix3 r j f) = ind (v1 (ix2 r j)) d := by
  refine (broadcastTo_apply _ _ (ix3 r j f) (ix3 r j (0 : Fin 1)) ?_).trans ?_
  · intro a
    match a with
    | ⟨0, _⟩ => rfl
    | ⟨1, _⟩ => rfl
    | ⟨2, _⟩ => rfl
  · refine (shapeCast_apply _ _ (ix3 r j (0 : Fin 1)) (ix2 r j) ?_).trans ?_
    · rw [Shape.rowMajor_val_two, Shape.rowMajor_val_three]
      show r.val * 8 + j.val = (r.val * 8 + j.val) * 1 + 0
      omega
    · rfl

/-- A child slice, spread along the slots: at (r, j, f) it is the slice at (r, 0, f). -/
theorem slab_apply (Q : Vec Ideal S512x1x128 .f32) (r : Fin 512) (j : Fin 8) (f : Fin 128) :
    broadcastTo S512x8x128 (shapeCast S512x1x128 (shapeCast S512x1x128 (shapeCast S512x128 Q shapeCasts_S512x1x128_S512x128)
      shapeCasts_S512x128_S512x1x128) shapeCasts_S512x1x128_S512x1x128) broadcasts_S512x1x128_S512x8x128 (ix3 r j f)
      = Q (ix3 r 0 f) := by
  refine (broadcastTo_apply _ _ (ix3 r j f) (ix3 r (0 : Fin 1) f) ?_).trans ?_
  · intro a
    match a with
    | ⟨0, _⟩ => rfl
    | ⟨1, _⟩ => rfl
    | ⟨2, _⟩ => rfl
  · rw [shapeCast_self]
    refine (shapeCast_apply _ _ (ix3 r (0 : Fin 1) f) (ix2 r f) ?_).trans ?_
    · rw [Shape.rowMajor_val_two, Shape.rowMajor_val_three]
      show r.val * 128 + f.val = (r.val * 1 + 0) * 128 + f.val
      omega
    · refine (shapeCast_apply _ _ (ix2 r f) (ix3 r (0 : Fin 1) f) ?_).trans rfl
      rw [Shape.rowMajor_val_two, Shape.rowMajor_val_three]
      show (r.val * 1 + 0) * 128 + f.val = r.val * 128 + f.val
      omega

/-! ## The accumulators, one step at a time, read at (r, j, f) -/

/-- The position words pass through a shape cast to their own shape unchanged. -/
theorem pay2_eq (P0 : Vec Ideal S512x8 .i32) : k0_pay2 (F := Ideal) P0 = P0 := shapeCast_self _ _

/-- The hidden accumulator after slot value 0: zero plus the first masked slice. -/
theorem pay4_apply (P0 : Vec Ideal S512x8 .i32) (Q0 : Vec Ideal S512x1x128 .f32) (r : Fin 512) (j : Fin 8) (f : Fin 128) :
    k0_pay4 (F := Ideal) P0 Q0 (ix3 r j f) = 0 + ind (P0 (ix2 r j)) 0#32 * Q0 (ix3 r 0 f) := by
  refine congrArg₂ (· + ·) Ideal.ofBits_zero_f32 (congrArg₂ (· * ·) ((mask_apply (k0_pay2 (F := Ideal) P0) 0#32 r j f).trans ?_) (slab_apply Q0 r j f))
  rw [pay2_eq]

/-- The cell accumulator after slot value 0: zero plus the first masked slice. -/
theorem pay5_apply (P0 : Vec Ideal S512x8 .i32) (Q0 : Vec Ideal S512x1x128 .f32) (r : Fin 512) (j : Fin 8) (f : Fin 128) :
    k0_pay5 (F := Ideal) P0 Q0 (ix3 r j f) = 0 + ind (P0 (ix2 r j)) 0#32 * Q0 (ix3 r 0 f) := by
  refine congrArg₂ (· + ·) Ideal.ofBits_zero_f32 (congrArg₂ (· * ·) ((mask_apply (k0_pay2 (F := Ideal) P0) 0#32 r j f).trans ?_) (slab_apply Q0 r j f))
  rw [pay2_eq]

/-- Child 1's hidden slice spread along the slots. -/
theorem pay7_apply (Q1 : Vec Ideal S512x1x128 .f32) (r : Fin 512) (j : Fin 8) (f : Fin 128) :
    k0_pay7 (F := Ideal) Q1 (ix3 r j f) = Q1 (ix3 r 0 f) := slab_apply Q1 r j f

/-- Child 1's cell slice spread along the slots. -/
theorem pay8_apply (Q1 : Vec Ideal S512x1x128 .f32) (r : Fin 512) (j : Fin 8) (f : Fin 128) :
    k0_pay8 (F := Ideal) Q1 (ix3 r j f) = Q1 (ix3 r 0 f) := slab_apply Q1 r j f

/-- The indicator column of slot value 1 spread along the features. -/
theorem pay9_apply (P0 : Vec Ideal S512x8 .i32) (r : Fin 512) (j : Fin 8) (f : Fin 128) :
    k0_pay9 (F := Ideal) P0 (ix3 r j f) = ind (P0 (ix2 r j)) 1#32 := by
  refine (mask_apply (k0_pay2 (F := Ideal) P0) 1#32 r j f).trans ?_
  rw [pay2_eq]

/-- The same column, spread where the cell accumulator spreads it. -/
theorem pay6_bcast_apply (P0 : Vec Ideal S512x8 .i32) (r : Fin 512) (j : Fin 8) (f : Fin 128) :
    broadcastTo S512x8x128 (k0_pay6 (F := Ideal) P0) broadcasts_S512x8x1_S512x8x128 (ix3 r j f) = ind (P0 (ix2 r j)) 1#32 :=
  pay9_apply P0 r j f

/-- The hidden accumulator through slot values 1, 2 and 3. -/
theorem pay13_apply (v1 : IVec S512x8 32) (v21 v36 v40 : FVec Ideal S512x8x128 .f32) (Q2 Q3 : Vec Ideal S512x1x128 .f32)
    (r : Fin 512) (j : Fin 8) (f : Fin 128) :
    k0_pay13 (F := Ideal) v1 v21 v36 v40 Q2 Q3 (ix3 r j f)
      = v21 (ix3 r j f) + v40 (ix3 r j f) * v36 (ix3 r j f) + ind (v1 (ix2 r j)) 2#32 * Q2 (ix3 r 0 f)
          + ind (v1 (ix2 r j)) 3#32 * Q3 (ix3 r 0 f) :=
  congrArg₂ (· + ·) (congrArg₂ (· + ·) rfl (congrArg₂ (· * ·) (mask_apply v1 2#32 r j f) (slab_apply Q2 r j f)))
    (congrArg₂ (· * ·) (mask_apply v1 3#32 r j f) (slab_apply Q3 r j f))

/-- The hidden accumulator through slot values 4 and 5. -/
theorem pay17_apply (v1 : IVec S512x8 32) (v84 : FVec Ideal S512x8x128 .f32) (Q4 Q5 : Vec Ideal S512x1x128 .f32)
    (r : Fin 512) (j : Fin 8) (f : Fin 128) :
    k0_pay17 (F := Ideal) v1 v84 Q4 Q5 (ix3 r j f)
      = v84 (ix3 r j f) + ind (v1 (ix2 r j)) 4#32 * Q4 (ix3 r 0 f) + ind (v1 (ix2 r j)) 5#32 * Q5 (ix3 r 0 f) :=
  congrArg₂ (· + ·) (congrArg₂ (· + ·) rfl (congrArg₂ (· * ·) (mask_apply v1 4#32 r j f) (slab_apply Q4 r j f)))
    (congrArg₂ (· * ·) (mask_apply v1 5#32 r j f) (slab_apply Q5 r j f))

/-- Position k of the row of 1024 and (slot of k, feature of k) of the 8 rows of 128 are the same row-major position. -/
theorem rowMajor_flat (r : Fin 512) (k : Fin 1024) :
    (S512x8x128.rowMajor (ix3 r (slotOf k) (featOf k))).val = (S512x1024.rowMajor (ix2 r k)).val := by
  rw [Shape.rowMajor_val_two, Shape.rowMajor_val_three]
  show (r.val * 8 + k.val / 128) * 128 + k.val % 128 = r.val * 1024 + k.val
  omega

/-- The hidden slab: the accumulator through slot values 6 and 7, laid out as rows of 1024 and narrowed (the identity
    on extended reals). -/
theorem pay23_apply (v1 : IVec S512x8 32) (v126 : FVec Ideal S512x8x128 .f32) (Q6 Q7 : Vec Ideal S512x1x128 .f32)
    (r : Fin 512) (k : Fin 1024) :
    k0_pay23 (F := Ideal) v1 v126 (k0_pay19 v1) Q6 Q7 (ix2 r k)
      = v126 (ix3 r (slotOf k) (featOf k)) + ind (v1 (ix2 r (slotOf k))) 6#32 * Q6 (ix3 r 0 (featOf k))
          + ind (v1 (ix2 r (slotOf k))) 7#32 * Q7 (ix3 r 0 (featOf k)) := by
  unfold k0_pay23
  refine (truncf_apply (ψ := .bf16) _ bitsLt_bf16_f32 (ix2 r k)).trans ?_
  refine (shapeCast_apply _ _ (ix2 r k) (ix3 r (slotOf k) (featOf k)) (rowMajor_flat r k)).trans ?_
  exact congrArg₂ (· + ·) (congrArg₂ (· + ·) rfl (congrArg₂ (· * ·) (mask_apply v1 6#32 r (slotOf k) (featOf k)) (slab_apply Q6 r (slotOf k) (featOf k))))
    (congrArg₂ (· * ·) (mask_apply v1 7#32 r (slotOf k) (featOf k)) (slab_apply Q7 r (slotOf k) (featOf k)))

/-- The cell accumulator through slot values 1 and 2. -/
theorem pay11_apply (v1 : IVec S512x8 32) (v24 : FVec Ideal S512x8x128 .f32) (v29 : FVec Ideal S512x8x1 .f32) (v39 : FVec Ideal S512x8x128 .f32)
    (Q2 : Vec Ideal S512x1x128 .f32) (r : Fin 512) (j : Fin 8) (f : Fin 128) :
    k0_pay11 (F := Ideal) v1 v24 v29 v39 Q2 (ix3 r j f)
      = v24 (ix3 r j f) + broadcastTo S512x8x128 v29 broadcasts_S512x8x1_S512x8x128 (ix3 r j f) * v39 (ix3 r j f)
          + ind (v1 (ix2 r j)) 2#32 * Q2 (ix3 r 0 f) :=
  congrArg₂ (· + ·) rfl (congrArg₂ (· * ·) (mask_apply v1 2#32 r j f) (slab_apply Q2 r j f))

/-- The masked cell slice of slot value 3, computed apart. -/
theorem pay14_apply (v1 : IVec S512x8 32) (Q3 : Vec Ideal S512x1x128 .f32) (r : Fin 512) (j : Fin 8) (f : Fin 128) :
    k0_pay14 (F := Ideal) v1 Q3 (ix3 r j f) = ind (v1 (ix2 r j)) 3#32 * Q3 (ix3 r 0 f) :=
  congrArg₂ (· * ·) (mask_apply v1 3#32 r j f) (slab_apply Q3 r j f)

/-- The cell accumulator through slot values 3, 4 and 5. -/
theorem pay18_apply (v1 : IVec S512x8 32) (v66 v86 : FVec Ideal S512x8x128 .f32) (Q4 Q5 : Vec Ideal S512x1x128 .f32)
    (r : Fin 512) (j : Fin 8) (f : Fin 128) :
    k0_pay18 (F := Ideal) v1 v66 v86 Q4 Q5 (ix3 r j f)
      = v66 (ix3 r j f) + v86 (ix3 r j f) + ind (v1 (ix2 r j)) 4#32 * Q4 (ix3 r 0 f) + ind (v1 (ix2 r j)) 5#32 * Q5 (ix3 r 0 f) :=
  congrArg₂ (· + ·) (congrArg₂ (· + ·) rfl (congrArg₂ (· * ·) (mask_apply v1 4#32 r j f) (slab_apply Q4 r j f)))
    (congrArg₂ (· * ·) (mask_apply v1 5#32 r j f) (slab_apply Q5 r j f))

/-- The cell slab: the accumulator through slot values 6 and 7, laid out as rows of 1024. -/
theorem pay22_apply (v1 : IVec S512x8 32) (v129 : FVec Ideal S512x8x128 .f32) (Q6 Q7 : Vec Ideal S512x1x128 .f32)
    (r : Fin 512) (k : Fin 1024) :
    k0_pay22 (F := Ideal) v1 v129 (k0_pay19 v1) Q6 Q7 (ix2 r k)
      = v129 (ix3 r (slotOf k) (featOf k)) + ind (v1 (ix2 r (slotOf k))) 6#32 * Q6 (ix3 r 0 (featOf k))
          + ind (v1 (ix2 r (slotOf k))) 7#32 * Q7 (ix3 r 0 (featOf k)) := by
  unfold k0_pay22
  refine (shapeCast_apply _ _ (ix2 r k) (ix3 r (slotOf k) (featOf k)) (rowMajor_flat r k)).trans ?_
  exact congrArg₂ (· + ·) (congrArg₂ (· + ·) rfl (congrArg₂ (· * ·) (mask_apply v1 6#32 r (slotOf k) (featOf k)) (slab_apply Q6 r (slotOf k) (featOf k))))
    (congrArg₂ (· * ·) (mask_apply v1 7#32 r (slotOf k) (featOf k)) (slab_apply Q7 r (slotOf k) (featOf k)))

/-! ## The two slabs -/

/-- The accumulated hidden slab (as the kernel hands it to its matrix products) at row r, position k: the value at
    (r, feature of k) of the child slice that the position word at (r, slot of k) names. -/
theorem hidden_slab (P0 : Vec Ideal S512x8 .i32) (Q0 Q1 Q2 Q3 Q4 Q5 Q6 Q7 : Vec Ideal S512x1x128 .f32)
    (hpos : ∀ (r : Fin 512) (j : Fin 8), (P0 (ix2 r j)).toNat < 8) (r : Fin 512) (k : Fin 1024) :
    k0_pay23 (F := Ideal) (k0_pay2 (F := Ideal) P0) (k0_pay17 (F := Ideal) (k0_pay2 (F := Ideal) P0)
        (k0_pay13 (F := Ideal) (k0_pay2 (F := Ideal) P0) (k0_pay4 (F := Ideal) P0 Q0) (k0_pay7 (F := Ideal) Q1) (k0_pay9 (F := Ideal) P0) Q2 Q3) Q4 Q5)
        (k0_pay19 (k0_pay2 (F := Ideal) P0)) Q6 Q7 (ix2 r k)
      = pick8 (childOf (P0 (ix2 r (slotOf k)))) (Q0 (ix3 r 0 (featOf k))) (Q1 (ix3 r 0 (featOf k))) (Q2 (ix3 r 0 (featOf k)))
          (Q3 (ix3 r 0 (featOf k))) (Q4 (ix3 r 0 (featOf k))) (Q5 (ix3 r 0 (featOf k))) (Q6 (ix3 r 0 (featOf k))) (Q7 (ix3 r 0 (featOf k))) := by
  rw [pay2_eq, pay23_apply, pay17_apply, pay13_apply, pay4_apply, pay9_apply, pay7_apply]
  exact masked_sum _ (hpos r (slotOf k)) _ _ _ _ _ _ _ _

/-- The accumulated cell slab at row r, position k, likewise. -/
theorem cell_slab (P0 : Vec Ideal S512x8 .i32) (Q0 Q1 Q2 Q3 Q4 Q5 Q6 Q7 : Vec Ideal S512x1x128 .f32)
    (hpos : ∀ (r : Fin 512) (j : Fin 8), (P0 (ix2 r j)).toNat < 8) (r : Fin 512) (k : Fin 1024) :
    k0_pay22 (F := Ideal) (k0_pay2 (F := Ideal) P0) (k0_pay18 (F := Ideal) (k0_pay2 (F := Ideal) P0)
        (k0_pay11 (F := Ideal) (k0_pay2 (F := Ideal) P0) (k0_pay5 (F := Ideal) P0 Q0) (k0_pay6 (F := Ideal) P0) (k0_pay8 (F := Ideal) Q1) Q2)
        (k0_pay14 (F := Ideal) (k0_pay2 (F := Ideal) P0) Q3) Q4 Q5)
        (k0_pay19 (k0_pay2 (F := Ideal) P0)) Q6 Q7 (ix2 r k)
      = pick8 (childOf (P0 (ix2 r (slotOf k)))) (Q0 (ix3 r 0 (featOf k))) (Q1 (ix3 r 0 (featOf k))) (Q2 (ix3 r 0 (featOf k)))
          (Q3 (ix3 r 0 (featOf k))) (Q4 (ix3 r 0 (featOf k))) (Q5 (ix3 r 0 (featOf k))) (Q6 (ix3 r 0 (featOf k))) (Q7 (ix3 r 0 (featOf k))) := by
  rw [pay2_eq, pay22_apply, pay18_apply, pay11_apply, pay14_apply, pay5_apply, pay6_bcast_apply, pay8_apply]
  exact masked_sum _ (hpos r (slotOf k)) _ _ _ _ _ _ _ _

end Cert.KernelIdeal.Gather

end
-- ==== Proof.KernelGate.lean ====
/-
  After the gather the kernel works on one block of 512 nodes with plain vector operations: three matrix products into
  zero accumulators (sums over the contracted axis at the ideal values), row and column broadcasts of the biases and of
  the mask, the node's own gate contribution tiled eight times along the row of 1024 (position k reads feature
  k mod 128), the logistic function, and the sum of the eight 128-wide windows of the gated cell slab taken from
  window 0 on.  Read at row r and feature f this is, term for term, the cell and the hidden value of the node whose
  data are row r of the block's vectors.
-/
import proofs.«405310_j88210038325568_3_alg».proof.Proof.Gen.KernelIdeal.Skeleton
import proofs.«405310_j88210038325568_3_alg».proof.Proof.Cell
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Gate

open Cert.KernelIdeal Cert.KernelIdeal.Gen Cert.ChildSum Idealize.ShloMosaic Idealize.ShloMosaic.ValueIdx

/-- The shared weights as the kernel's body loads them (whole arrays; the biases as rows). -/
def blockParams (Wfin : Vec Ideal S128x128 .bf16) (bfin : Vec Ideal S1x128 .f32) (Waggr : Vec Ideal S1024x128 .bf16)
    (baggr : Vec Ideal S1x128 .f32) (Wf : Vec Ideal S1024x1024 .bf16) (bf : Vec Ideal S1x1024 .f32) : Params where
  Wfin := fun i f => Wfin (ix2 i f)
  bfin := fun f => bfin (ix2 0 f)
  Waggr := fun q f => Waggr (ix2 q f)
  baggr := fun f => baggr (ix2 0 f)
  Wf := fun q k => Wf (ix2 q k)
  bf := fun k => bf (ix2 0 k)

/-- Row r of a block: the node's input row, its mask value (a column), and the gathered hidden and cell slabs. -/
def blockNode (X : FVec Ideal S512x128 .bf16) (mk : Vec Ideal S512x1 .f32) (NH : FVec Ideal S512x1024 .bf16)
    (NC : FVec Ideal S512x1024 .f32) (r : Fin 512) : Node where
  x := fun i => X (ix2 r i)
  mask := mk (ix2 r 0)
  nh := fun q => NH (ix2 r q)
  nc := fun q => NC (ix2 r q)

/-! ### The product of the 512x128 and 128x128 operands -/

theorem lhs_mmIn_0 (i : S512x128.Idx) (q : dot_S512x128_S128x128_S512x128_1_0_0_1_n_n.contr.Idx) :
    (dot_S512x128_S128x128_S512x128_1_0_0_1_n_n.lhsIdx i q 0).val = (i 0).val := by
  unfold DotDims.lhsIdx
  rw [dif_neg (show ¬(0 : Fin S512x128.rank) ∈ dot_S512x128_S128x128_S512x128_1_0_0_1_n_n.lhsBatch by decide), dif_pos (show (0 : Fin S512x128.rank) ∈ dot_S512x128_S128x128_S512x128_1_0_0_1_n_n.lhsNonContracting by decide)]
  rfl
theorem lhs_mmIn_1 (i : S512x128.Idx) (q : dot_S512x128_S128x128_S512x128_1_0_0_1_n_n.contr.Idx) :
    (dot_S512x128_S128x128_S512x128_1_0_0_1_n_n.lhsIdx i q 1).val = (q ⟨0, by decide⟩).val :=
  dot_S512x128_S128x128_S512x128_1_0_0_1_n_n.lhsIdx_val_of_single rfl i q
theorem rhs_mmIn_0 (i : S512x128.Idx) (q : dot_S512x128_S128x128_S512x128_1_0_0_1_n_n.contr.Idx) :
    (dot_S512x128_S128x128_S512x128_1_0_0_1_n_n.rhsIdx i q 0).val = (q ⟨0, by decide⟩).val :=
  dot_S512x128_S128x128_S512x128_1_0_0_1_n_n.rhsIdx_val_of_single rfl i q
theorem rhs_mmIn_1 (i : S512x128.Idx) (q : dot_S512x128_S128x128_S512x128_1_0_0_1_n_n.contr.Idx) :
    (dot_S512x128_S128x128_S512x128_1_0_0_1_n_n.rhsIdx i q 1).val = (i 1).val := by
  unfold DotDims.rhsIdx
  rw [dif_neg (show ¬(1 : Fin S128x128.rank) ∈ dot_S512x128_S128x128_S512x128_1_0_0_1_n_n.rhsBatch by decide), dif_pos (show (1 : Fin S128x128.rank) ∈ dot_S512x128_S128x128_S512x128_1_0_0_1_n_n.rhsNonContracting by decide)]
  rfl

/-- The matrix product into the zero accumulator, read at (r, c): the sum over the contracted axis. -/
theorem mmIn_apply (A : FVec Ideal S512x128 .bf16) (B : FVec Ideal S128x128 .bf16) (r : Fin 512) (c : Fin 128) :
    FloatOps.matmul dot_S512x128_S128x128_S512x128_1_0_0_1_n_n none A B (constant (F := Ideal) S512x128 .f32 0x00000000#32) (ix2 r c)
      = ∑ q : Fin 128, A (ix2 r q) * B (ix2 q c) := by
  rw [Ideal.matmul_constant_zero_apply, ← Equiv.sum_comp (ValueIdx.contrEquiv1 dot_S512x128_S128x128_S512x128_1_0_0_1_n_n 128 rfl rfl).symm]
  refine Finset.sum_congr rfl fun k _ => ?_
  have hk := ValueIdx.contrEquiv1_symm_val dot_S512x128_S128x128_S512x128_1_0_0_1_n_n 128 rfl rfl k
  have el : dot_S512x128_S128x128_S512x128_1_0_0_1_n_n.lhsIdx (ix2 r c) ((ValueIdx.contrEquiv1 dot_S512x128_S128x128_S512x128_1_0_0_1_n_n 128 rfl rfl).symm k) = ix2 r k := funext fun a => Fin.ext (by
    match a with
    | ⟨0, _⟩ => exact lhs_mmIn_0 _ _
    | ⟨1, _⟩ => exact (lhs_mmIn_1 _ _).trans hk)
  have er : dot_S512x128_S128x128_S512x128_1_0_0_1_n_n.rhsIdx (ix2 r c) ((ValueIdx.contrEquiv1 dot_S512x128_S128x128_S512x128_1_0_0_1_n_n 128 rfl rfl).symm k) = ix2 k c := funext fun a => Fin.ext (by
    match a with
    | ⟨0, _⟩ => exact (rhs_mmIn_0 _ _).trans hk
    | ⟨1, _⟩ => exact rhs_mmIn_1 _ _)
  rw [el, er]

/-! ### The product of the 512x1024 and 1024x1024 operands -/

theorem lhs_mmGate_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem lhs_mmGate_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
theorem rhs_mmGate_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
theorem rhs_mmGate_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- The matrix product into the zero accumulator, read at (r, c): the sum over the contracted axis. -/
theorem mmGate_apply (A : FVec Ideal S512x1024 .bf16) (B : FVec Ideal S1024x1024 .bf16) (r : Fin 512) (c : Fin 1024) :
    FloatOps.matmul dot_S512x1024_S1024x1024_S512x1024_1_0_0_1_n_n none A B (constant (F := Ideal) S512x1024 .f32 0x00000000#32) (ix2 r c)
      = ∑ q : Fin 1024, A (ix2 r q) * B (ix2 q c) := by
  rw [Ideal.matmul_constant_zero_apply, ← Equiv.sum_comp (ValueIdx.contrEquiv1 dot_S512x1024_S1024x1024_S512x1024_1_0_0_1_n_n 1024 rfl rfl).symm]
  refine Finset.sum_congr rfl fun k _ => ?_
  have hk := ValueIdx.contrEquiv1_symm_val dot_S512x1024_S1024x1024_S512x1024_1_0_0_1_n_n 1024 rfl rfl k
  have el : dot_S512x1024_S1024x1024_S512x1024_1_0_0_1_n_n.lhsIdx (ix2 r c) ((ValueIdx.contrEquiv1 dot_S512x1024_S1024x1024_S512x1024_1_0_0_1_n_n 1024 rfl rfl).symm k) = ix2 r k := funext fun a => Fin.ext (by
    match a with
    | ⟨0, _⟩ => exact lhs_mmGate_0 _ _
    | ⟨1, _⟩ => exact (lhs_mmGate_1 _ _).trans hk)
  have er : dot_S512x1024_S1024x1024_S512x1024_1_0_0_1_n_n.rhsIdx (ix2 r c) ((ValueIdx.contrEquiv1 dot_S512x1024_S1024x1024_S512x1024_1_0_0_1_n_n 1024 rfl rfl).symm k) = ix2 k c := funext fun a => Fin.ext (by
    match a with
    | ⟨0, _⟩ => exact (rhs_mmGate_0 _ _).trans hk
    | ⟨1, _⟩ => exact rhs_mmGate_1 _ _)
  rw [el, er]

/-! ### The product of the 512x1024 and 1024x128 operands -/

theorem lhs_mmOut_0 (i : S512x128.Idx) (q : dot_S512x1024_S1024x128_S512x128_1_0_0_1_n_n.contr.Idx) :
    (dot_S512x1024_S1024x128_S512x128_1_0_0_1_n_n.lhsIdx i q 0).val = (i 0).val := by
  unfold DotDims.lhsIdx
  rw [dif_neg (show ¬(0 : Fin S512x1024.rank) ∈ dot_S512x1024_S1024x128_S512x128_1_0_0_1_n_n.lhsBatch by decide), dif_pos (show (0 : Fin S512x1024.rank) ∈ dot_S512x1024_S1024x128_S512x128_1_0_0_1_n_n.lhsNonContracting by decide)]
  rfl
theorem lhs_mmOut_1 (i : S512x128.Idx) (q : dot_S512x1024_S1024x128_S512x128_1_0_0_1_n_n.contr.Idx) :
    (dot_S512x1024_S1024x128_S512x128_1_0_0_1_n_n.lhsIdx i q 1).val = (q ⟨0, by decide⟩).val :=
  dot_S512x1024_S1024x128_S512x128_1_0_0_1_n_n.lhsIdx_val_of_single rfl i q
theorem rhs_mmOut_0 (i : S512x128.Idx) (q : dot_S512x1024_S1024x128_S512x128_1_0_0_1_n_n.contr.Idx) :
    (dot_S512x1024_S1024x128_S512x128_1_0_0_1_n_n.rhsIdx i q 0).val = (q ⟨0, by decide⟩).val :=
  dot_S512x1024_S1024x128_S512x128_1_0_0_1_n_n.rhsIdx_val_of_single rfl i q
theorem rhs_mmOut_1 (i : S512x128.Idx) (q : dot_S512x1024_S1024x128_S512x128_1_0_0_1_n_n.contr.Idx) :
    (dot_S512x1024_S1024x128_S512x128_1_0_0_1_n_n.rhsIdx i q 1).val = (i 1).val := by
  unfold DotDims.rhsIdx
  rw [dif_neg (show ¬(1 : Fin S1024x128.rank) ∈ dot_S512x1024_S1024x128_S512x128_1_0_0_1_n_n.rhsBatch by decide), dif_pos (show (1 : Fin S1024x128.rank) ∈ dot_S512x1024_S1024x128_S512x128_1_0_0_1_n_n.rhsNonContracting by decide)]
  rfl

/-- The matrix product into the zero accumulator, read at (r, c): the sum over the contracted axis. -/
theorem mmOut_apply (A : FVec Ideal S512x1024 .bf16) (B : FVec Ideal S1024x128 .bf16) (r : Fin 512) (c : Fin 128) :
    FloatOps.matmul dot_S512x1024_S1024x128_S512x128_1_0_0_1_n_n none A B (constant (F := Ideal) S512x128 .f32 0x00000000#32) (ix2 r c)
      = ∑ q : Fin 1024, A (ix2 r q) * B (ix2 q c) := by
  rw [Ideal.matmul_constant_zero_apply, ← Equiv.sum_comp (ValueIdx.contrEquiv1 dot_S512x1024_S1024x128_S512x128_1_0_0_1_n_n 1024 rfl rfl).symm]
  refine Finset.sum_congr rfl fun k _ => ?_
  have hk := ValueIdx.contrEquiv1_symm_val dot_S512x1024_S1024x128_S512x128_1_0_0_1_n_n 1024 rfl rfl k
  have el : dot_S512x1024_S1024x128_S512x128_1_0_0_1_n_n.lhsIdx (ix2 r c) ((ValueIdx.contrEquiv1 dot_S512x1024_S1024x128_S512x128_1_0_0_1_n_n 1024 rfl rfl).symm k) = ix2 r k := funext fun a => Fin.ext (by
    match a with
    | ⟨0, _⟩ => exact lhs_mmOut_0 _ _
    | ⟨1, _⟩ => exact (lhs_mmOut_1 _ _).trans hk)
  have er : dot_S512x1024_S1024x128_S512x128_1_0_0_1_n_n.rhsIdx (ix2 r c) ((ValueIdx.contrEquiv1 dot_S512x1024_S1024x128_S512x128_1_0_0_1_n_n 1024 rfl rfl).symm k) = ix2 k c := funext fun a => Fin.ext (by
    match a with
    | ⟨0, _⟩ => exact (rhs_mmOut_0 _ _).trans hk
    | ⟨1, _⟩ => exact rhs_mmOut_1 _ _)
  rw [el, er]

/-! ### Broadcasts, the eight-fold tiling and the windows -/

/-- A column broadcast along the rows: at (p, c) the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Eight copies of one 128-wide block side by side: position k of the row of 1024 reads feature k mod 128. -/
theorem tile8_apply (x : FVec Ideal S512x128 .f32) (r : Fin 512) (k : Fin 1024) :
    concatenate S512x1024 1 [⟨S512x128, x⟩, ⟨S512x128, x⟩, ⟨S512x128, x⟩, ⟨S512x128, x⟩, ⟨S512x128, x⟩, ⟨S512x128, x⟩, ⟨S512x128, x⟩, ⟨S512x128, x⟩]
        concatenates_S512x128_S512x128_S512x128_S512x128_S512x128_S512x128_S512x128_S512x128_S512x1024_d1 (ix2 r k)
      = x (ix2 r (featOf k)) := by
  refine concatenate_replicate_apply (t := S512x1024) (s₁ := S512x128) 1 8 x concatenates_S512x128_S512x128_S512x128_S512x128_S512x128_S512x128_S512x128_S512x128_S512x1024_d1 rfl (ix2 r k) (ix2 r (featOf k)) ?_ ?_
  · show (featOf k).val = k.val % 128
    rfl
  · intro b hb
    match b with
    | ⟨0, _⟩ => rfl
    | ⟨1, _⟩ => exact absurd rfl hb

/-! ### The stages of the block computation, as vectors -/

/-- The nodes' own gate contributions: the masked linear image of the input rows. -/
def ownV (X : FVec Ideal S512x128 .bf16) (Wfin : Vec Ideal S128x128 .bf16) (bfin : Vec Ideal S1x128 .f32)
    (mk : Vec Ideal S512x1 .f32) : FVec Ideal S512x128 .f32 :=
  have w : FVec Ideal S128x128 .bf16 := shapeCast S128x128 Wfin shapeCasts_S128x128_S128x128
  have z : FVec Ideal S512x128 .f32 := constant (F := Ideal) S512x128 .f32 0x00000000#32
  have m : FVec Ideal S512x128 .f32 := matmul dot_S512x128_S128x128_S512x128_1_0_0_1_n_n none X w z
  have b : FVec Ideal S1x128 .f32 := shapeCast S1x128 bfin shapeCasts_S1x128_S1x128
  have bb : FVec Ideal S512x128 .f32 := broadcastTo S512x128 b broadcasts_S1x128_S512x128
  have c : FVec Ideal S512x1 .f32 := shapeCast S512x1 mk shapeCasts_S512x1_S512x1
  have cc : FVec Ideal S512x128 .f32 := broadcastTo S512x128 c broadcasts_S512x1_S512x128
  mulf (addf m bb) cc

/-- A 128-wide block laid eight times along the row of 1024. -/
def tileV (x : FVec Ideal S512x128 .f32) : FVec Ideal S512x1024 .f32 :=
  concatenate S512x1024 1 [⟨S512x128, x⟩, ⟨S512x128, x⟩, ⟨S512x128, x⟩, ⟨S512x128, x⟩, ⟨S512x128, x⟩, ⟨S512x128, x⟩, ⟨S512x128, x⟩, ⟨S512x128, x⟩]
    concatenates_S512x128_S512x128_S512x128_S512x128_S512x128_S512x128_S512x128_S512x128_S512x1024_d1

/-- The forget gates' arguments: the linear image of the gathered hidden slab, the bias row, and the tiled own
    contribution twice. -/
def gateV (NH : FVec Ideal S512x1024 .bf16) (Wf : Vec Ideal S1024x1024 .bf16) (bf : Vec Ideal S1x1024 .f32)
    (t : FVec Ideal S512x1024 .f32) : FVec Ideal S512x1024 .f32 :=
  have w : FVec Ideal S1024x1024 .bf16 := shapeCast S1024x1024 Wf shapeCasts_S1024x1024_S1024x1024
  have z : FVec Ideal S512x1024 .f32 := constant (F := Ideal) S512x1024 .f32 0x00000000#32
  have m : FVec Ideal S512x1024 .f32 := matmul dot_S512x1024_S1024x1024_S512x1024_1_0_0_1_n_n none NH w z
  have b : FVec Ideal S1x1024 .f32 := shapeCast S1x1024 bf shapeCasts_S1x1024_S1x1024
  have bb : FVec Ideal S512x1024 .f32 := broadcastTo S512x1024 b broadcasts_S1x1024_S512x1024
  addf (addf (addf m bb) t) t

/-- The eight 128-wide windows of a slab, added from window 0 on. -/
def sumV (s : FVec Ideal S512x1024 .f32) : FVec Ideal S512x128 .f32 :=
  have w0 : FVec Ideal S512x128 .f32 := extractStridedSlice S512x128 ![0, 0] s slices_S512x1024_o0_0_S512x128
  have w1 : FVec Ideal S512x128 .f32 := extractStridedSlice S512x128 ![0, 128] s slices_S512x1024_o0_128_S512x128
  have w2 : FVec Ideal S512x128 .f32 := extractStridedSlice S512x128 ![0, 256] s slices_S512x1024_o0_256_S512x128
  have w3 : FVec Ideal S512x128 .f32 := extractStridedSlice S512x128 ![0, 384] s slices_S512x1024_o0_384_S512x128
  have w4 : FVec Ideal S512x128 .f32 := extractStridedSlice S512x128 ![0, 512] s slices_S512x1024_o0_512_S512x128
  have w5 : FVec Ideal S512x128 .f32 := extractStridedSlice S512x128 ![0, 640] s slices_S512x1024_o0_640_S512x128
  have w6 : FVec Ideal S512x128 .f32 := extractStridedSlice S512x128 ![0, 768] s slices_S512x1024_o0_768_S512x128
  have w7 : FVec Ideal S512x128 .f32 := extractStridedSlice S512x128 ![0, 896] s slices_S512x1024_o0_896_S512x128
  have a1 : FVec Ideal S512x128 .f32 := addf w0 w1
  have a2 : FVec Ideal S512x128 .f32 := addf a1 w2
  have a3 : FVec Ideal S512x128 .f32 := addf a2 w3
  have a4 : FVec Ideal S512x128 .f32 := addf a3 w4
  have a5 : FVec Ideal S512x128 .f32 := addf a4 w5
  have a6 : FVec Ideal S512x128 .f32 := addf a5 w6
  addf a6 w7

/-- The cell payload is these stages composed. -/
theorem pay25_eq (NC : FVec Ideal S512x1024 .f32) (NH : FVec Ideal S512x1024 .bf16) (X : FVec Ideal S512x128 .bf16)
    (Wfin : Vec Ideal S128x128 .bf16) (bfin : Vec Ideal S1x128 .f32) (mk : Vec Ideal S512x1 .f32)
    (Wf : Vec Ideal S1024x1024 .bf16) (bf : Vec Ideal S1x1024 .f32) :
    k0_pay25 (F := Ideal) NC NH X Wfin bfin mk Wf bf
      = sumV (mulf (logistic (gateV NH Wf bf (tileV (ownV X Wfin bfin mk)))) NC) := rfl

/-! ### The stages read at an index -/

/-- The own contribution at (r, f): the input row's linear image at f, plus the bias, times the row's mask value. -/
theorem ownV_apply (X : FVec Ideal S512x128 .bf16) (Wfin : Vec Ideal S128x128 .bf16) (bfin : Vec Ideal S1x128 .f32)
    (mk : Vec Ideal S512x1 .f32) (r : Fin 512) (f : Fin 128) :
    ownV X Wfin bfin mk (ix2 r f)
      = ((∑ i : Fin 128, X (ix2 r i) * Wfin (ix2 i f)) + bfin (ix2 (0 : Fin 1) f)) * mk (ix2 r (0 : Fin 1)) := by
  unfold ownV
  rw [shapeCast_self, shapeCast_self, shapeCast_self]
  exact congrArg₂ (· * ·) (congrArg₂ (· + ·) (mmIn_apply X Wfin r f) (broadcastTo_1b_ab_apply bfin broadcasts_S1x128_S512x128 r f))
    (broadcastTo_a1_ab_apply mk broadcasts_S512x1_S512x128 r f)

/-- The tiled block at (r, k): the block at (r, k mod 128). -/
theorem tileV_apply (x : FVec Ideal S512x128 .f32) (r : Fin 512) (k : Fin 1024) :
    tileV x (ix2 r k) = x (ix2 r (featOf k)) := tile8_apply x r k

/-- The gate arguments at (r, k). -/
theorem gateV_apply (NH : FVec Ideal S512x1024 .bf16) (Wf : Vec Ideal S1024x1024 .bf16) (bf : Vec Ideal S1x1024 .f32)
    (t : FVec Ideal S512x1024 .f32) (r : Fin 512) (k : Fin 1024) :
    gateV NH Wf bf t (ix2 r k)
      = (((∑ q : Fin 1024, NH (ix2 r q) * Wf (ix2 q k)) + bf (ix2 (0 : Fin 1) k)) + t (ix2 r k)) + t (ix2 r k) := by
  unfold gateV
  rw [shapeCast_self, shapeCast_self]
  exact congrArg (· + t (ix2 r k)) (congrArg (· + t (ix2 r k))
    (congrArg₂ (· + ·) (mmGate_apply NH Wf r k) (broadcastTo_1b_ab_apply bf broadcasts_S1x1024_S512x1024 r k)))

/-- Window d of a slab (columns 128 d … 128 d + 127) at (r, f): the slab at (r, 128 d + f). -/
theorem win_apply (o : Nat) (s : FVec Ideal S512x1024 .f32) (h : S512x1024.Slices ![0, o] S512x128) (r : Fin 512) (f : Fin 128)
    (d : Fin 8) (hd : d.val * 128 = o) :
    extractStridedSlice S512x128 ![0, o] s h (ix2 r f) = s (ix2 r (flat d f)) :=
  slice2_axis1_apply o s h r f (flat d f) (by show d.val * 128 + f.val = o + f.val; rw [hd])

/-- The sum of the eight windows at (r, f): the slab's eight entries 128 d + f, added from d = 0 on. -/
theorem sumV_apply (s : FVec Ideal S512x1024 .f32) (r : Fin 512) (f : Fin 128) :
    sumV s (ix2 r f)
      = s (ix2 r (flat 0 f)) + s (ix2 r (flat 1 f)) + s (ix2 r (flat 2 f)) + s (ix2 r (flat 3 f))
        + s (ix2 r (flat 4 f)) + s (ix2 r (flat 5 f)) + s (ix2 r (flat 6 f)) + s (ix2 r (flat 7 f)) := by
  unfold sumV
  exact congrArg₂ (· + ·) (congrArg₂ (· + ·) (congrArg₂ (· + ·) (congrArg₂ (· + ·) (congrArg₂ (· + ·) (congrArg₂ (· + ·) (congrArg₂ (· + ·)
    (win_apply 0 s _ r f 0 rfl) (win_apply 128 s _ r f 1 rfl)) (win_apply 256 s _ r f 2 rfl)) (win_apply 384 s _ r f 3 rfl))
    (win_apply 512 s _ r f 4 rfl)) (win_apply 640 s _ r f 5 rfl)) (win_apply 768 s _ r f 6 rfl)) (win_apply 896 s _ r f 7 rfl)

/-- The gated cell slab at (r, k): the forget gate of position k times the gathered cell value there. -/
theorem slab_apply (NC : FVec Ideal S512x1024 .f32) (NH : FVec Ideal S512x1024 .bf16) (X : FVec Ideal S512x128 .bf16)
    (Wfin : Vec Ideal S128x128 .bf16) (bfin : Vec Ideal S1x128 .f32) (mk : Vec Ideal S512x1 .f32)
    (Wf : Vec Ideal S1024x1024 .bf16) (bf : Vec Ideal S1x1024 .f32)
    (Waggr : Vec Ideal S1024x128 .bf16) (baggr : Vec Ideal S1x128 .f32) (r : Fin 512) (k : Fin 1024) :
    mulf (logistic (gateV NH Wf bf (tileV (ownV X Wfin bfin mk)))) NC (ix2 r k)
      = Ideal.logistic (gateArg (blockParams Wfin bfin Waggr baggr Wf bf) (blockNode X mk NH NC r) k)
          * (blockNode X mk NH NC r).nc k := by
  show Ideal.logistic (gateV NH Wf bf (tileV (ownV X Wfin bfin mk)) (ix2 r k)) * NC (ix2 r k) = _
  rw [gateV_apply, tileV_apply, ownV_apply]
  rfl

/-- The output gate's linear part at (r, f). -/
theorem pay26_apply (NH : FVec Ideal S512x1024 .bf16) (Waggr : Vec Ideal S1024x128 .bf16) (r : Fin 512) (f : Fin 128) :
    k0_pay26 (F := Ideal) NH Waggr (ix2 r f) = ∑ q : Fin 1024, NH (ix2 r q) * Waggr (ix2 q f) := by
  unfold k0_pay26
  rw [shapeCast_self]
  exact mmOut_apply NH Waggr r f

/-- The output bias row is passed through unchanged. -/
theorem pay27_eq (baggr : Vec Ideal S1x128 .f32) : k0_pay27 (F := Ideal) baggr = baggr := shapeCast_self _ _

/-- The block's cell values: at (r, f) the cell of row r's node at feature f. -/
theorem cell_eq (NC : FVec Ideal S512x1024 .f32) (NH : FVec Ideal S512x1024 .bf16) (X : FVec Ideal S512x128 .bf16)
    (Wfin : Vec Ideal S128x128 .bf16) (bfin : Vec Ideal S1x128 .f32) (mk : Vec Ideal S512x1 .f32)
    (Wf : Vec Ideal S1024x1024 .bf16) (bf : Vec Ideal S1x1024 .f32)
    (Waggr : Vec Ideal S1024x128 .bf16) (baggr : Vec Ideal S1x128 .f32) (r : Fin 512) (f : Fin 128) :
    k0_pay25 (F := Ideal) NC NH X Wfin bfin mk Wf bf (ix2 r f)
      = cell (blockParams Wfin bfin Waggr baggr Wf bf) (blockNode X mk NH NC r) f := by
  rw [pay25_eq, sumV_apply]
  have ht : ∀ d : Fin 8, mulf (logistic (gateV NH Wf bf (tileV (ownV X Wfin bfin mk)))) NC (ix2 r (flat d f))
      = term (blockParams Wfin bfin Waggr baggr Wf bf) (blockNode X mk NH NC r) d f :=
    fun d => slab_apply NC NH X Wfin bfin mk Wf bf Waggr baggr r (flat d f)
  rw [ht 0, ht 1, ht 2, ht 3, ht 4, ht 5, ht 6, ht 7]
  rfl

/-- The block's hidden values: at (r, f) the hidden value of row r's node at feature f. -/
theorem hidden_eq (NC : FVec Ideal S512x1024 .f32) (NH : FVec Ideal S512x1024 .bf16) (X : FVec Ideal S512x128 .bf16)
    (Wfin : Vec Ideal S128x128 .bf16) (bfin : Vec Ideal S1x128 .f32) (mk : Vec Ideal S512x1 .f32)
    (Wf : Vec Ideal S1024x1024 .bf16) (bf : Vec Ideal S1x1024 .f32)
    (Waggr : Vec Ideal S1024x128 .bf16) (baggr : Vec Ideal S1x128 .f32) (r : Fin 512) (f : Fin 128) :
    k0_pay1 (F := Ideal) (k0_pay25 (F := Ideal) NC NH X Wfin bfin mk Wf bf) (k0_pay26 (F := Ideal) NH Waggr) (k0_pay27 (F := Ideal) baggr) (ix2 r f)
      = hidden (blockParams Wfin bfin Waggr baggr Wf bf) (blockNode X mk NH NC r) f := by
  unfold k0_pay1
  show (k0_pay26 (F := Ideal) NH Waggr (ix2 r f)
        + broadcastTo S512x128 (k0_pay27 (F := Ideal) baggr) broadcasts_S1x128_S512x128 (ix2 r f))
      * Ideal.tanh (k0_pay25 (F := Ideal) NC NH X Wfin bfin mk Wf bf (ix2 r f)) = _
  rw [cell_eq NC NH X Wfin bfin mk Wf bf Waggr baggr r f, pay26_apply, pay27_eq, broadcastTo_1b_ab_apply]
  rfl

end Cert.KernelIdeal.Gate

end
-- ==== Proof.KernelRow.lean ====
/-
  Row r of a block of 512 nodes, read off the block's five per-node arrays: the node's input row, its mask value (kept as
  a column), and in slot j the hidden and cell rows of the child that the block's position word at (r, j) names.
-/
import proofs.«405310_j88210038325568_3_alg».proof.KernelIdeal
import proofs.«405310_j88210038325568_3_alg».proof.Proof.Cell
import Idealize.ShloMosaic.Lib.ValueIdx

noncomputable section

namespace Cert.KernelIdeal.Block

open Cert.KernelIdeal Cert.ChildSum Idealize.ShloMosaic Idealize.ShloMosaic.ValueIdx

/-- Row r of a block as one node's data. -/
def rowNode (x0 : Vec Ideal S512x128 .f32) (x1 : Vec Ideal S512x1 .f32) (x2 x3 : Vec Ideal S512x8x128 .f32)
    (x4 : Vec Ideal S512x8 .i32) (r : Fin 512) : Node where
  x := fun i => x0 (ix2 r i)
  mask := x1 (ix2 r 0)
  nh := fun q => x2 (ix3 r (childOf (x4 (ix2 r (slotOf q)))) (featOf q))
  nc := fun q => x3 (ix3 r (childOf (x4 (ix2 r (slotOf q)))) (featOf q))

end Cert.KernelIdeal.Block

end
-- ==== Proof.KernelBlock.lean ====
/-
  What the kernel's body leaves in its two output blocks, from the blocks of its eleven operands: at row r and feature f
  the hidden and the cell value of the node that row r of the block describes.  The body's one store per output covers
  the whole block; its loads are the whole operand blocks and, for the two children arrays, the eight slices along the
  slot axis (slice d at (r, 0, f) is the block at (r, d, f)); the gathered slabs are the masked sums and the rest is
  the block arithmetic.
-/
import proofs.«405310_j88210038325568_3_alg».proof.Proof.Gen.KernelIdeal.Frame
import proofs.«405310_j88210038325568_3_alg».proof.Proof.KernelGather
import proofs.«405310_j88210038325568_3_alg».proof.Proof.KernelGate
import proofs.«405310_j88210038325568_3_alg».proof.Proof.KernelRow
import Idealize.ShloMosaic.Lib.ValueIdx
import Idealize.ShloMosaic.Lib.Pipeline.Value

noncomputable section

namespace Cert.KernelIdeal.Block

open Cert.KernelIdeal Cert.KernelIdeal.Gen Cert.ChildSum Idealize.ShloMosaic Idealize.ShloMosaic.ValueIdx

/-- The zero offsets of a whole rank-2 block, however they are spelt. -/
theorem hz : (![0, 0] : Fin 2 → Nat) = fun _ => 0 := funext fun a => by fin_cases a <;> rfl

/-- The slice of a children block at slot offset o (one slot wide), read at (r, 0, f): the block at (r, o, f). -/
theorem ld_slot (x : Vec Ideal S512x8x128 .f32) (o : Nat)
    (inb : ∀ a, (![0, o, 0] : Fin 3 → Nat) a + S512x1x128.size a ≤ S512x8x128.size a) (d : Fin 8) (hd : d.val = o)
    (r : Fin 512) (f : Fin 128) :
    View.ld x (Rect.unit (s := S512x8x128) ![0, o, 0] S512x1x128.size inb) (ix3 r (0 : Fin 1) f) = x (ix3 r d f) := by
  refine congrArg x (funext fun a => Fin.ext ?_)
  match a with
  | ⟨0, _⟩ => show 0 + 1 * r.val = r.val; omega
  | ⟨1, _⟩ => show o + 1 * 0 = d.val; omega
  | ⟨2, _⟩ => show 0 + 1 * f.val = f.val; omega

/-- Picking by a slot among the eight slices of a children block, each read at (r, 0, f): the block at (r, slot, f). -/
theorem pick_slots (x : Vec Ideal S512x8x128 .f32) (c : Fin 8) (r : Fin 512) (f : Fin 128) :
    pick8 c (View.ld x r0_1 (ix3 r (0 : Fin 1) f)) (View.ld x r0_2 (ix3 r (0 : Fin 1) f)) (View.ld x r0_3 (ix3 r (0 : Fin 1) f))
        (View.ld x r0_4 (ix3 r (0 : Fin 1) f)) (View.ld x r0_5 (ix3 r (0 : Fin 1) f)) (View.ld x r0_6 (ix3 r (0 : Fin 1) f))
        (View.ld x r0_7 (ix3 r (0 : Fin 1) f)) (View.ld x r0_8 (ix3 r (0 : Fin 1) f))
      = x (ix3 r c f) := by
  match c with
  | ⟨0, h⟩ => exact ld_slot x 0 _ ⟨0, h⟩ rfl r f
  | ⟨1, h⟩ => exact ld_slot x 1 _ ⟨1, h⟩ rfl r f
  | ⟨2, h⟩ => exact ld_slot x 2 _ ⟨2, h⟩ rfl r f
  | ⟨3, h⟩ => exact ld_slot x 3 _ ⟨3, h⟩ rfl r f
  | ⟨4, h⟩ => exact ld_slot x 4 _ ⟨4, h⟩ rfl r f
  | ⟨5, h⟩ => exact ld_slot x 5 _ ⟨5, h⟩ rfl r f
  | ⟨6, h⟩ => exact ld_slot x 6 _ ⟨6, h⟩ rfl r f
  | ⟨7, h⟩ => exact ld_slot x 7 _ ⟨7, h⟩ rfl r f
  | ⟨_ + 8, h⟩ => exact absurd h (Nat.not_lt.2 (Nat.le_add_left _ _))

/-- The gathered hidden slab of a block, from the position words and the eight slices of the children's hidden block. -/
abbrev hSlab (x2 : Vec Ideal S512x8x128 .f32) (x4 : Vec Ideal S512x8 .i32) : FVec Ideal S512x1024 .bf16 :=
  k0_pay23 (F := Ideal) (k0_pay2 (F := Ideal) x4) (k0_pay17 (F := Ideal) (k0_pay2 (F := Ideal) x4)
      (k0_pay13 (F := Ideal) (k0_pay2 (F := Ideal) x4) (k0_pay4 (F := Ideal) x4 (View.ld x2 r0_1)) (k0_pay7 (F := Ideal) (View.ld x2 r0_2))
        (k0_pay9 (F := Ideal) x4) (View.ld x2 r0_3) (View.ld x2 r0_4)) (View.ld x2 r0_5) (View.ld x2 r0_6))
    (k0_pay19 (k0_pay2 (F := Ideal) x4)) (View.ld x2 r0_7) (View.ld x2 r0_8)

/-- The gathered cell slab of a block, likewise from the children's cell block. -/
abbrev cSlab (x3 : Vec Ideal S512x8x128 .f32) (x4 : Vec Ideal S512x8 .i32) : FVec Ideal S512x1024 .f32 :=
  k0_pay22 (F := Ideal) (k0_pay2 (F := Ideal) x4) (k0_pay18 (F := Ideal) (k0_pay2 (F := Ideal) x4)
      (k0_pay11 (F := Ideal) (k0_pay2 (F := Ideal) x4) (k0_pay5 (F := Ideal) x4 (View.ld x3 r0_1)) (k0_pay6 (F := Ideal) x4)
        (k0_pay8 (F := Ideal) (View.ld x3 r0_2)) (View.ld x3 r0_3))
      (k0_pay14 (F := Ideal) (k0_pay2 (F := Ideal) x4) (View.ld x3 r0_4)) (View.ld x3 r0_5) (View.ld x3 r0_6))
    (k0_pay19 (k0_pay2 (F := Ideal) x4)) (View.ld x3 r0_7) (View.ld x3 r0_8)

/-- Two nodes with the same four components are the same node. -/
theorem node_eq (a b : Node) (hx : ∀ i, a.x i = b.x i) (hm : a.mask = b.mask) (hh : ∀ q, a.nh q = b.nh q)
    (hc : ∀ q, a.nc q = b.nc q) : a = b := by
  cases a; cases b
  simp only [Node.mk.injEq]
  exact ⟨funext hx, hm, funext hh, funext hc⟩

/-- Row r of the block the arithmetic works on (the input rows narrowed, the mask column, the two gathered slabs) is
    the node that row r of the operand blocks describes. -/
theorem blockNode_eq (x0 : Vec Ideal S512x128 .f32) (x1 : Vec Ideal S512x1 .f32) (x2 x3 : Vec Ideal S512x8x128 .f32)
    (x4 : Vec Ideal S512x8 .i32) (hpos : ∀ (r : Fin 512) (j : Fin 8), (x4 (ix2 r j)).toNat < 8) (r : Fin 512) :
    Gate.blockNode (k0_pay24 (F := Ideal) x0) x1 (hSlab x2 x4) (cSlab x3 x4) r = rowNode x0 x1 x2 x3 x4 r := by
  refine node_eq _ _ (fun i => rfl) rfl (fun q => ?_) (fun q => ?_)
  · refine (Gather.hidden_slab x4 (View.ld x2 r0_1) (View.ld x2 r0_2) (View.ld x2 r0_3) (View.ld x2 r0_4) (View.ld x2 r0_5) (View.ld x2 r0_6) (View.ld x2 r0_7) (View.ld x2 r0_8) hpos r q).trans ?_
    exact pick_slots x2 _ r (featOf q)
  · refine (Gather.cell_slab x4 (View.ld x3 r0_1) (View.ld x3 r0_2) (View.ld x3 r0_3) (View.ld x3 r0_4) (View.ld x3 r0_5) (View.ld x3 r0_6) (View.ld x3 r0_7) (View.ld x3 r0_8) hpos r q).trans ?_
    exact pick_slots x3 _ r (featOf q)

/-- The cell block: at (r, f) the cell of row r's node at feature f. -/
theorem out12_apply (x0 : Vec Ideal S512x128 .f32) (x1 : Vec Ideal S512x1 .f32) (x2 x3 : Vec Ideal S512x8x128 .f32)
    (x4 : Vec Ideal S512x8 .i32) (x5 : Vec Ideal S128x128 .bf16) (x6 : Vec Ideal S1x128 .f32) (x7 : Vec Ideal S1024x128 .bf16)
    (x8 : Vec Ideal S1x128 .f32) (x9 : Vec Ideal S1024x1024 .bf16) (x10 : Vec Ideal S1x1024 .f32)
    (hpos : ∀ (r : Fin 512) (j : Fin 8), (x4 (ix2 r j)).toNat < 8) (r : Fin 512) (f : Fin 128) :
    out0_12 (F := Ideal) x0 x1 x2 x3 x4 x5 x6 x7 x8 x9 x10 (ix2 r f)
      = cell (Gate.blockParams x5 x6 x7 x8 x9 x10) (rowNode x0 x1 x2 x3 x4 r) f := by
  unfold out0_12
  rw [View.canon_unit_zero hz]
  simp only [View.ld_unit_zero (S := S512x8) hz, View.ld_unit_zero (S := S512x128) hz, View.ld_unit_zero (S := S128x128) hz,
    View.ld_unit_zero (S := S1x128) hz, View.ld_unit_zero (S := S512x1) hz, View.ld_unit_zero (S := S1024x1024) hz,
    View.ld_unit_zero (S := S1x1024) hz, View.ld_unit_zero (S := S1024x128) hz]
  refine (Gate.cell_eq (cSlab x3 x4) (hSlab x2 x4) (k0_pay24 (F := Ideal) x0) x5 x6 x1 x9 x10 x7 x8 r f).trans ?_
  exact congrArg (fun n => cell (Gate.blockParams x5 x6 x7 x8 x9 x10) n f) (blockNode_eq x0 x1 x2 x3 x4 hpos r)

/-- The hidden block: at (r, f) the hidden value of row r's node at feature f. -/
theorem out11_apply (x0 : Vec Ideal S512x128 .f32) (x1 : Vec Ideal S512x1 .f32) (x2 x3 : Vec Ideal S512x8x128 .f32)
    (x4 : Vec Ideal S512x8 .i32) (x5 : Vec Ideal S128x128 .bf16) (x6 : Vec Ideal S1x128 .f32) (x7 : Vec Ideal S1024x128 .bf16)
    (x8 : Vec Ideal S1x128 .f32) (x9 : Vec Ideal S1024x1024 .bf16) (x10 : Vec Ideal S1x1024 .f32)
    (hpos : ∀ (r : Fin 512) (j : Fin 8), (x4 (ix2 r j)).toNat < 8) (r : Fin 512) (f : Fin 128) :
    out0_11 (F := Ideal) x0 x1 x2 x3 x4 x5 x6 x7 x8 x9 x10 (ix2 r f)
      = hidden (Gate.blockParams x5 x6 x7 x8 x9 x10) (rowNode x0 x1 x2 x3 x4 r) f := by
  unfold out0_11
  rw [View.canon_unit_zero hz]
  simp only [View.ld_unit_zero (S := S512x8) hz, View.ld_unit_zero (S := S512x128) hz, View.ld_unit_zero (S := S128x128) hz,
    View.ld_unit_zero (S := S1x128) hz, View.ld_unit_zero (S := S512x1) hz, View.ld_unit_zero (S := S1024x1024) hz,
    View.ld_unit_zero (S := S1x1024) hz, View.ld_unit_zero (S := S1024x128) hz]
  refine (Gate.hidden_eq (cSlab x3 x4) (hSlab x2 x4) (k0_pay24 (F := Ideal) x0) x5 x6 x1 x9 x10 x7 x8 r f).trans ?_
  exact congrArg (fun n => hidden (Gate.blockParams x5 x6 x7 x8 x9 x10) n f) (blockNode_eq x0 x1 x2 x3 x4 hpos r)

end Cert.KernelIdeal.Block

end
-- ==== Proof.KernelWindows.lean ====
/-
  The kernel runs over 64 blocks of 512 consecutive nodes.  Point t's block of a per-node array is rows
  512 t … 512 t + 511 of it (all of the other axes); every weight array is staged whole at every point.  The arrays the
  region reads are the arguments themselves or light images of them made just before it: the mask as a column, the
  three biases as rows (reshapes: same values), the three weight matrices converted to a narrower float format (the
  identity on extended reals), and the position words clamped to 0 … 7 (the identity on words already in 0 … 7).  So
  the weights a block sees are the argument weights, and row r of point t's blocks is the data of node 512 t + r.
-/
import proofs.«405310_j88210038325568_3_alg».proof.Proof.Gen.KernelIdeal.Value
import proofs.«405310_j88210038325568_3_alg».proof.Proof.KernelGate
import proofs.«405310_j88210038325568_3_alg».proof.Proof.KernelRow
import proofs.«405310_j88210038325568_3_alg».proof.Proof.Cell
import Idealize.ShloMosaic.Lib.StableHlo.Run
import Idealize.ShloMosaic.Lib.StableHlo.Predicate
import Idealize.ShloMosaic.Lib.ValueIdx
import Idealize.ShloMosaic.Lib.Pipeline.Value

noncomputable section

namespace Cert.KernelIdeal.Windows

open Cert.KernelIdeal Cert.KernelIdeal.Gen Cert.ChildSum Idealize.ShloMosaic Idealize.ShloMosaic.TcCoe Idealize.SL.Sem
open Idealize.ShloMosaic.StableHlo Idealize.ShloMosaic.ValueIdx

variable (m : (ℓ : Loc nD τ sig) → Buf (Elt Ideal) ℓ)

/-! ## Point t's block of each operand, at its literal type -/

abbrev blk0 (c : Dev nD) (t : Fin cfg0.N) : Vec Ideal S512x128 .f32 := iblk m c 0 t
abbrev blk1 (c : Dev nD) (t : Fin cfg0.N) : Vec Ideal S512x1 .f32 := iblk m c 1 t
abbrev blk2 (c : Dev nD) (t : Fin cfg0.N) : Vec Ideal S512x8x128 .f32 := iblk m c 2 t
abbrev blk3 (c : Dev nD) (t : Fin cfg0.N) : Vec Ideal S512x8x128 .f32 := iblk m c 3 t
abbrev blk4 (c : Dev nD) (t : Fin cfg0.N) : Vec Ideal S512x8 .i32 := iblk m c 4 t
abbrev blk5 (c : Dev nD) (t : Fin cfg0.N) : Vec Ideal S128x128 .bf16 := iblk m c 5 t
abbrev blk6 (c : Dev nD) (t : Fin cfg0.N) : Vec Ideal S1x128 .f32 := iblk m c 6 t
abbrev blk7 (c : Dev nD) (t : Fin cfg0.N) : Vec Ideal S1024x128 .bf16 := iblk m c 7 t
abbrev blk8 (c : Dev nD) (t : Fin cfg0.N) : Vec Ideal S1x128 .f32 := iblk m c 8 t
abbrev blk9 (c : Dev nD) (t : Fin cfg0.N) : Vec Ideal S1024x1024 .bf16 := iblk m c 9 t
abbrev blk10 (c : Dev nD) (t : Fin cfg0.N) : Vec Ideal S1x1024 .f32 := iblk m c 10 t

/-- The node that row r of point t's blocks belongs to. -/
def nodeAt (t : Fin cfg0.N) (r : Fin 512) : Fin 32768 :=
  ⟨t.val * 512 + r.val, by have h1 := t.isLt; have h2 := r.isLt; have h : cfg0.N = 64 := N_0; omega⟩

/-! ## The arrays the region finds, as images of the arguments -/

/-- The mask column is the mask vector reshaped. -/
theorem V_v0 (c : Dev nD) : (V m c main_v0 : S32768x1.Idx → EReal)
    = shapeCast S32768x1 (m ((c : Thread nD τ).loc main_arg1)) shapeCasts_S32768_S32768x1 := by
  dsimp only [Gen.V]
  simp only [hostOps0, hostOps0_1, List.flatten_cons, List.flatten_nil, List.append_nil, List.cons_append, List.nil_append]
  after_results
  all_goals rfl

/-- The input bias row is the bias vector reshaped. -/
theorem V_v1 (c : Dev nD) : (V m c main_v1 : S1x128.Idx → EReal)
    = shapeCast S1x128 (m ((c : Thread nD τ).loc main_arg6)) shapeCasts_S128_S1x128 := by
  dsimp only [Gen.V]
  simp only [hostOps0, hostOps0_1, List.flatten_cons, List.flatten_nil, List.append_nil, List.cons_append, List.nil_append]
  after_results
  all_goals rfl

/-- The output-gate bias row is the bias vector reshaped. -/
theorem V_v2 (c : Dev nD) : (V m c main_v2 : S1x128.Idx → EReal)
    = shapeCast S1x128 (m ((c : Thread nD τ).loc main_arg8)) shapeCasts_S128_S1x128 := by
  dsimp only [Gen.V]
  simp only [hostOps0, hostOps0_1, List.flatten_cons, List.flatten_nil, List.append_nil, List.cons_append, List.nil_append]
  after_results
  all_goals rfl

/-- The forget-gate bias row is the bias vector reshaped. -/
theorem V_v3 (c : Dev nD) : (V m c main_v3 : S1x1024.Idx → EReal)
    = shapeCast S1x1024 (m ((c : Thread nD τ).loc main_arg10)) shapeCasts_S1024_S1x1024 := by
  dsimp only [Gen.V]
  simp only [hostOps0, hostOps0_1, List.flatten_cons, List.flatten_nil, List.append_nil, List.cons_append, List.nil_append]
  after_results
  all_goals rfl

/-- The input weights in the narrower format. -/
theorem V_v4 (c : Dev nD) : (V m c main_v4 : S128x128.Idx → EReal)
    = truncf (F := Ideal) .bf16 (m ((c : Thread nD τ).loc main_arg5)) bitsLt_bf16_f32 := by
  dsimp only [Gen.V]
  simp only [hostOps0, hostOps0_1, List.flatten_cons, List.flatten_nil, List.append_nil, List.cons_append, List.nil_append]
  after_results
  all_goals rfl

/-- The output-gate weights in the narrower format. -/
theorem V_v5 (c : Dev nD) : (V m c main_v5 : S1024x128.Idx → EReal)
    = truncf (F := Ideal) .bf16 (m ((c : Thread nD τ).loc main_arg7)) bitsLt_bf16_f32 := by
  dsimp only [Gen.V]
  simp only [hostOps0, hostOps0_1, List.flatten_cons, List.flatten_nil, List.append_nil, List.cons_append, List.nil_append]
  after_results
  all_goals rfl

/-- The forget-gate weights in the narrower format. -/
theorem V_v6 (c : Dev nD) : (V m c main_v6 : S1024x1024.Idx → EReal)
    = truncf (F := Ideal) .bf16 (m ((c : Thread nD τ).loc main_arg9)) bitsLt_bf16_f32 := by
  dsimp only [Gen.V]
  simp only [hostOps0, hostOps0_1, List.flatten_cons, List.flatten_nil, List.append_nil, List.cons_append, List.nil_append]
  after_results
  all_goals rfl

/-- The position words clamped to 0 … 7: the smaller of 7 and the larger of 0 and the word. -/
theorem V_v7 (c : Dev nD) : (V m c main_v7 : S32768x8.Idx → BitVec 32)
    = minsi (broadcastInDim S32768x8 ![] bcast_S_S32768x8 (constantI S_ 32 7#32))
        (maxsi (broadcastInDim S32768x8 ![] bcast_S_S32768x8 (constantI S_ 32 0#32)) (m ((c : Thread nD τ).loc main_arg4))) := by
  dsimp only [Gen.V]
  simp only [hostOps0, hostOps0_1, List.flatten_cons, List.flatten_nil, List.append_nil, List.cons_append, List.nil_append]
  after_results
  all_goals rfl

/-! ## The printed index maps, decided over the grid -/

/-- Window 0's block index at point t: t on the node axis, 0 on the others. -/
theorem idx0 : ∀ t : Fin cfg0.N, win0_0.index t (0 : Fin 2) = t.val ∧ win0_0.index t (1 : Fin 2) = 0 :=
  (by decide +kernel : ∀ t : Fin grid0.N, _)

/-- Window 1's block index at point t: t on the node axis, 0 on the others. -/
theorem idx1 : ∀ t : Fin cfg0.N, win0_1.index t (0 : Fin 2) = t.val ∧ win0_1.index t (1 : Fin 2) = 0 :=
  (by decide +kernel : ∀ t : Fin grid0.N, _)

/-- Window 2's block index at point t: t on the node axis, 0 on the others. -/
theorem idx2 : ∀ t : Fin cfg0.N, win0_2.index t (0 : Fin 3) = t.val ∧ win0_2.index t (1 : Fin 3) = 0 ∧ win0_2.index t (2 : Fin 3) = 0 :=
  (by decide +kernel : ∀ t : Fin grid0.N, _)

/-- Window 3's block index at point t: t on the node axis, 0 on the others. -/
theorem idx3 : ∀ t : Fin cfg0.N, win0_3.index t (0 : Fin 3) = t.val ∧ win0_3.index t (1 : Fin 3) = 0 ∧ win0_3.index t (2 : Fin 3) = 0 :=
  (by decide +kernel : ∀ t : Fin grid0.N, _)

/-- Window 4's block index at point t: t on the node axis, 0 on the others. -/
theorem idx4 : ∀ t : Fin cfg0.N, win0_4.index t (0 : Fin 2) = t.val ∧ win0_4.index t (1 : Fin 2) = 0 :=
  (by decide +kernel : ∀ t : Fin grid0.N, _)

/-- Window 5's block index at point t: 0 on every axis. -/
theorem idx5 : ∀ t : Fin cfg0.N, win0_5.index t (0 : Fin 2) = 0 ∧ win0_5.index t (1 : Fin 2) = 0 :=
  (by decide +kernel : ∀ t : Fin grid0.N, _)

/-- Window 6's block index at point t: 0 on every axis. -/
theorem idx6 : ∀ t : Fin cfg0.N, win0_6.index t (0 : Fin 2) = 0 ∧ win0_6.index t (1 : Fin 2) = 0 :=
  (by decide +kernel : ∀ t : Fin grid0.N, _)

/-- Window 7's block index at point t: 0 on every axis. -/
theorem idx7 : ∀ t : Fin cfg0.N, win0_7.index t (0 : Fin 2) = 0 ∧ win0_7.index t (1 : Fin 2) = 0 :=
  (by decide +kernel : ∀ t : Fin grid0.N, _)

/-- Window 8's block index at point t: 0 on every axis. -/
theorem idx8 : ∀ t : Fin cfg0.N, win0_8.index t (0 : Fin 2) = 0 ∧ win0_8.index t (1 : Fin 2) = 0 :=
  (by decide +kernel : ∀ t : Fin grid0.N, _)

/-- Window 9's block index at point t: 0 on every axis. -/
theorem idx9 : ∀ t : Fin cfg0.N, win0_9.index t (0 : Fin 2) = 0 ∧ win0_9.index t (1 : Fin 2) = 0 :=
  (by decide +kernel : ∀ t : Fin grid0.N, _)

/-- Window 10's block index at point t: 0 on every axis. -/
theorem idx10 : ∀ t : Fin cfg0.N, win0_10.index t (0 : Fin 2) = 0 ∧ win0_10.index t (1 : Fin 2) = 0 :=
  (by decide +kernel : ∀ t : Fin grid0.N, _)

/-! ## A block read at an index is its array at the index under it -/

/-- Window 0: row r of point t's block is row 512 t + r of the array. -/
theorem blk0_apply (c : Dev nD) (t : Fin cfg0.N) (x0 : Fin 512) (x1 : Fin 128) :
    blk0 m c t (ix2 x0 x1) = V m c main_arg0 (ix2 (nodeAt t x0) x1) := by
  show V m c main_arg0 (((cfg0.win 0).blk t).view.emb (ix2 x0 x1)) = V m c main_arg0 (ix2 (nodeAt t x0) x1)
  refine congrArg (V m c main_arg0) ?_
  funext a; apply Fin.ext
  match a with
  | ⟨0, _⟩ => show win0_0.index t (0 : Fin 2) * 512 + 1 * x0.val = t.val * 512 + x0.val; rw [(idx0 t).1]; omega
  | ⟨1, _⟩ => show win0_0.index t (1 : Fin 2) * 128 + 1 * x1.val = x1.val; rw [(idx0 t).2]; omega

/-- Window 1: row r of point t's block is row 512 t + r of the array. -/
theorem blk1_apply (c : Dev nD) (t : Fin cfg0.N) (x0 : Fin 512) (x1 : Fin 1) :
    blk1 m c t (ix2 x0 x1) = V m c main_v0 (ix2 (nodeAt t x0) x1) := by
  show V m c main_v0 (((cfg0.win 1).blk t).view.emb (ix2 x0 x1)) = V m c main_v0 (ix2 (nodeAt t x0) x1)
  refine congrArg (V m c main_v0) ?_
  funext a; apply Fin.ext
  match a with
  | ⟨0, _⟩ => show win0_1.index t (0 : Fin 2) * 512 + 1 * x0.val = t.val * 512 + x0.val; rw [(idx1 t).1]; omega
  | ⟨1, _⟩ => show win0_1.index t (1 : Fin 2) * 1 + 1 * x1.val = x1.val; rw [(idx1 t).2]; omega

/-- Window 2: row r of point t's block is row 512 t + r of the array. -/
theorem blk2_apply (c : Dev nD) (t : Fin cfg0.N) (x0 : Fin 512) (x1 : Fin 8) (x2 : Fin 128) :
    blk2 m c t (ix3 x0 x1 x2) = V m c main_arg2 (ix3 (nodeAt t x0) x1 x2) := by
  show V m c main_arg2 (((cfg0.win 2).blk t).view.emb (ix3 x0 x1 x2)) = V m c main_arg2 (ix3 (nodeAt t x0) x1 x2)
  refine congrArg (V m c main_arg2) ?_
  funext a; apply Fin.ext
  match a with
  | ⟨0, _⟩ => show win0_2.index t (0 : Fin 3) * 512 + 1 * x0.val = t.val * 512 + x0.val; rw [(idx2 t).1]; omega
  | ⟨1, _⟩ => show win0_2.index t (1 : Fin 3) * 8 + 1 * x1.val = x1.val; rw [(idx2 t).2.1]; omega
  | ⟨2, _⟩ => show win0_2.index t (2 : Fin 3) * 128 + 1 * x2.val = x2.val; rw [(idx2 t).2.2]; omega

/-- Window 3: row r of point t's block is row 512 t + r of the array. -/
theorem blk3_apply (c : Dev nD) (t : Fin cfg0.N) (x0 : Fin 512) (x1 : Fin 8) (x2 : Fin 128) :
    blk3 m c t (ix3 x0 x1 x2) = V m c main_arg3 (ix3 (nodeAt t x0) x1 x2) := by
  show V m c main_arg3 (((cfg0.win 3).blk t).view.emb (ix3 x0 x1 x2)) = V m c main_arg3 (ix3 (nodeAt t x0) x1 x2)
  refine congrArg (V m c main_arg3) ?_
  funext a; apply Fin.ext
  match a with
  | ⟨0, _⟩ => show win0_3.index t (0 : Fin 3) * 512 + 1 * x0.val = t.val * 512 + x0.val; rw [(idx3 t).1]; omega
  | ⟨1, _⟩ => show win0_3.index t (1 : Fin 3) * 8 + 1 * x1.val = x1.val; rw [(idx3 t).2.1]; omega
  | ⟨2, _⟩ => show win0_3.index t (2 : Fin 3) * 128 + 1 * x2.val = x2.val; rw [(idx3 t).2.2]; omega

/-- Window 4: row r of point t's block is row 512 t + r of the array. -/
theorem blk4_apply (c : Dev nD) (t : Fin cfg0.N) (x0 : Fin 512) (x1 : Fin 8) :
    blk4 m c t (ix2 x0 x1) = V m c main_v7 (ix2 (nodeAt t x0) x1) := by
  show V m c main_v7 (((cfg0.win 4).blk t).view.emb (ix2 x0 x1)) = V m c main_v7 (ix2 (nodeAt t x0) x1)
  refine congrArg (V m c main_v7) ?_
  funext a; apply Fin.ext
  match a with
  | ⟨0, _⟩ => show win0_4.index t (0 : Fin 2) * 512 + 1 * x0.val = t.val * 512 + x0.val; rw [(idx4 t).1]; omega
  | ⟨1, _⟩ => show win0_4.index t (1 : Fin 2) * 8 + 1 * x1.val = x1.val; rw [(idx4 t).2]; omega

/-- Window 5: the block is the whole array. -/
theorem blk5_apply (c : Dev nD) (t : Fin cfg0.N) (x0 : Fin 128) (x1 : Fin 128) :
    blk5 m c t (ix2 x0 x1) = V m c main_v4 (ix2 x0 x1) := by
  show V m c main_v4 (((cfg0.win 5).blk t).view.emb (ix2 x0 x1)) = V m c main_v4 (ix2 x0 x1)
  refine congrArg (V m c main_v4) ?_
  funext a; apply Fin.ext
  match a with
  | ⟨0, _⟩ => show win0_5.index t (0 : Fin 2) * 128 + 1 * x0.val = x0.val; rw [(idx5 t).1]; omega
  | ⟨1, _⟩ => show win0_5.index t (1 : Fin 2) * 128 + 1 * x1.val = x1.val; rw [(idx5 t).2]; omega

/-- Window 6: the block is the whole array. -/
theorem blk6_apply (c : Dev nD) (t : Fin cfg0.N) (x0 : Fin 1) (x1 : Fin 128) :
    blk6 m c t (ix2 x0 x1) = V m c main_v1 (ix2 x0 x1) := by
  show V m c main_v1 (((cfg0.win 6).blk t).view.emb (ix2 x0 x1)) = V m c main_v1 (ix2 x0 x1)
  refine congrArg (V m c main_v1) ?_
  funext a; apply Fin.ext
  match a with
  | ⟨0, _⟩ => show win0_6.index t (0 : Fin 2) * 1 + 1 * x0.val = x0.val; rw [(idx6 t).1]; omega
  | ⟨1, _⟩ => show win0_6.index t (1 : Fin 2) * 128 + 1 * x1.val = x1.val; rw [(idx6 t).2]; omega

/-- Window 7: the block is the whole array. -/
theorem blk7_apply (c : Dev nD) (t : Fin cfg0.N) (x0 : Fin 1024) (x1 : Fin 128) :
    blk7 m c t (ix2 x0 x1) = V m c main_v5 (ix2 x0 x1) := by
  show V m c main_v5 (((cfg0.win 7).blk t).view.emb (ix2 x0 x1)) = V m c main_v5 (ix2 x0 x1)
  refine congrArg (V m c main_v5) ?_
  funext a; apply Fin.ext
  match a with
  | ⟨0, _⟩ => show win0_7.index t (0 : Fin 2) * 1024 + 1 * x0.val = x0.val; rw [(idx7 t).1]; omega
  | ⟨1, _⟩ => show win0_7.index t (1 : Fin 2) * 128 + 1 * x1.val = x1.val; rw [(idx7 t).2]; omega

/-- Window 8: the block is the whole array. -/
theorem blk8_apply (c : Dev nD) (t : Fin cfg0.N) (x0 : Fin 1) (x1 : Fin 128) :
    blk8 m c t (ix2 x0 x1) = V m c main_v2 (ix2 x0 x1) := by
  show V m c main_v2 (((cfg0.win 8).blk t).view.emb (ix2 x0 x1)) = V m c main_v2 (ix2 x0 x1)
  refine congrArg (V m c main_v2) ?_
  funext a; apply Fin.ext
  match a with
  | ⟨0, _⟩ => show win0_8.index t (0 : Fin 2) * 1 + 1 * x0.val = x0.val; rw [(idx8 t).1]; omega
  | ⟨1, _⟩ => show win0_8.index t (1 : Fin 2) * 128 + 1 * x1.val = x1.val; rw [(idx8 t).2]; omega

/-- Window 9: the block is the whole array. -/
theorem blk9_apply (c : Dev nD) (t : Fin cfg0.N) (x0 : Fin 1024) (x1 : Fin 1024) :
    blk9 m c t (ix2 x0 x1) = V m c main_v6 (ix2 x0 x1) := by
  show V m c main_v6 (((cfg0.win 9).blk t).view.emb (ix2 x0 x1)) = V m c main_v6 (ix2 x0 x1)
  refine congrArg (V m c main_v6) ?_
  funext a; apply Fin.ext
  match a with
  | ⟨0, _⟩ => show win0_9.index t (0 : Fin 2) * 1024 + 1 * x0.val = x0.val; rw [(idx9 t).1]; omega
  | ⟨1, _⟩ => show win0_9.index t (1 : Fin 2) * 1024 + 1 * x1.val = x1.val; rw [(idx9 t).2]; omega

/-- Window 10: the block is the whole array. -/
theorem blk10_apply (c : Dev nD) (t : Fin cfg0.N) (x0 : Fin 1) (x1 : Fin 1024) :
    blk10 m c t (ix2 x0 x1) = V m c main_v3 (ix2 x0 x1) := by
  show V m c main_v3 (((cfg0.win 10).blk t).view.emb (ix2 x0 x1)) = V m c main_v3 (ix2 x0 x1)
  refine congrArg (V m c main_v3) ?_
  funext a; apply Fin.ext
  match a with
  | ⟨0, _⟩ => show win0_10.index t (0 : Fin 2) * 1 + 1 * x0.val = x0.val; rw [(idx10 t).1]; omega
  | ⟨1, _⟩ => show win0_10.index t (1 : Fin 2) * 1024 + 1 * x1.val = x1.val; rw [(idx10 t).2]; omega

/-! ## The images read at an index -/

/-- Clamping a word already in 0 … 7 to 0 … 7 leaves it as it is. -/
theorem clamp_id {w : BitVec 32} (hw : w.toNat < 8) : IntOp.minsi 7#32 (IntOp.maxsi 0#32 w) = w := by
  obtain ⟨n, hn, rfl⟩ : ∃ n : Nat, n < 8 ∧ w = BitVec.ofNat 32 n := ⟨w.toNat, hw, by simp⟩
  interval_cases n <;> decide

/-- A position word of point t's block is the argument's word of node 512 t + r, where that word is one of 0 … 7. -/
theorem pos_apply (c : Dev nD) (t : Fin cfg0.N) (r : Fin 512) (j : Fin 8)
    (hw : (m ((c : Thread nD τ).loc main_arg4) (ix2 (nodeAt t r) j)).toNat < 8) :
    blk4 m c t (ix2 r j) = m ((c : Thread nD τ).loc main_arg4) (ix2 (nodeAt t r) j) :=
  (blk4_apply m c t r j).trans ((congrFun (V_v7 m c) (ix2 (nodeAt t r) j)).trans (clamp_id hw))

/-- The input rows. -/
theorem x_apply (c : Dev nD) (t : Fin cfg0.N) (r : Fin 512) (i : Fin 128) :
    blk0 m c t (ix2 r i) = m ((c : Thread nD τ).loc main_arg0) (ix2 (nodeAt t r) i) :=
  (blk0_apply m c t r i).trans (congrFun (V_main_arg0 m c) (ix2 (nodeAt t r) i))

/-- The mask column: the mask vector's value at the node. -/
theorem mask_apply (c : Dev nD) (t : Fin cfg0.N) (r : Fin 512) :
    blk1 m c t (ix2 r 0) = m ((c : Thread nD τ).loc main_arg1) (ix1 (nodeAt t r)) :=
  (blk1_apply m c t r 0).trans ((congrFun (V_v0 m c) (ix2 (nodeAt t r) 0)).trans
    (shapeCast_apply _ _ (ix2 (nodeAt t r) (0 : Fin 1)) (ix1 (nodeAt t r)) (by
      rw [Shape.rowMajor_val_one, Shape.rowMajor_val_two]
      show (nodeAt t r).val = (nodeAt t r).val * 1 + 0
      omega)))

/-- The children's hidden rows. -/
theorem h_apply (c : Dev nD) (t : Fin cfg0.N) (r : Fin 512) (d : Fin 8) (f : Fin 128) :
    blk2 m c t (ix3 r d f) = m ((c : Thread nD τ).loc main_arg2) (ix3 (nodeAt t r) d f) :=
  (blk2_apply m c t r d f).trans (congrFun (V_main_arg2 m c) (ix3 (nodeAt t r) d f))

/-- The children's cell rows. -/
theorem c_apply (c : Dev nD) (t : Fin cfg0.N) (r : Fin 512) (d : Fin 8) (f : Fin 128) :
    blk3 m c t (ix3 r d f) = m ((c : Thread nD τ).loc main_arg3) (ix3 (nodeAt t r) d f) :=
  (blk3_apply m c t r d f).trans (congrFun (V_main_arg3 m c) (ix3 (nodeAt t r) d f))

/-- The input weights: the narrowed matrix has the argument's values. -/
theorem wfin_apply (c : Dev nD) (t : Fin cfg0.N) (i f : Fin 128) :
    blk5 m c t (ix2 i f) = m ((c : Thread nD τ).loc main_arg5) (ix2 i f) :=
  (blk5_apply m c t i f).trans (congrFun (V_v4 m c) (ix2 i f))

/-- The output-gate weights. -/
theorem waggr_apply (c : Dev nD) (t : Fin cfg0.N) (q : Fin 1024) (f : Fin 128) :
    blk7 m c t (ix2 q f) = m ((c : Thread nD τ).loc main_arg7) (ix2 q f) :=
  (blk7_apply m c t q f).trans (congrFun (V_v5 m c) (ix2 q f))

/-- The forget-gate weights. -/
theorem wf_apply (c : Dev nD) (t : Fin cfg0.N) (q k : Fin 1024) :
    blk9 m c t (ix2 q k) = m ((c : Thread nD τ).loc main_arg9) (ix2 q k) :=
  (blk9_apply m c t q k).trans (congrFun (V_v6 m c) (ix2 q k))

/-- The input bias as a row. -/
theorem bfin_apply (c : Dev nD) (t : Fin cfg0.N) (f : Fin 128) :
    blk6 m c t (ix2 0 f) = m ((c : Thread nD τ).loc main_arg6) (ix1 f) :=
  (blk6_apply m c t 0 f).trans ((congrFun (V_v1 m c) (ix2 0 f)).trans
    (shapeCast_apply _ _ (ix2 (0 : Fin 1) f) (ix1 f) (by
      rw [Shape.rowMajor_val_one, Shape.rowMajor_val_two]
      show f.val = 0 * 128 + f.val
      omega)))

/-- The output-gate bias as a row. -/
theorem baggr_apply (c : Dev nD) (t : Fin cfg0.N) (f : Fin 128) :
    blk8 m c t (ix2 0 f) = m ((c : Thread nD τ).loc main_arg8) (ix1 f) :=
  (blk8_apply m c t 0 f).trans ((congrFun (V_v2 m c) (ix2 0 f)).trans
    (shapeCast_apply _ _ (ix2 (0 : Fin 1) f) (ix1 f) (by
      rw [Shape.rowMajor_val_one, Shape.rowMajor_val_two]
      show f.val = 0 * 128 + f.val
      omega)))

/-- The forget-gate bias as a row. -/
theorem bf_apply (c : Dev nD) (t : Fin cfg0.N) (k : Fin 1024) :
    blk10 m c t (ix2 0 k) = m ((c : Thread nD τ).loc main_arg10) (ix1 k) :=
  (blk10_apply m c t 0 k).trans ((congrFun (V_v3 m c) (ix2 0 k)).trans
    (shapeCast_apply _ _ (ix2 (0 : Fin 1) k) (ix1 k) (by
      rw [Shape.rowMajor_val_one, Shape.rowMajor_val_two]
      show k.val = 0 * 1024 + k.val
      omega)))

/-! ## The weights and the nodes -/

/-- The weights every block sees are the argument weights. -/
theorem params_eq (c : Dev nD) (t : Fin cfg0.N) :
    Gate.blockParams (blk5 m c t) (blk6 m c t) (blk7 m c t) (blk8 m c t) (blk9 m c t) (blk10 m c t)
      = arrParams (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10)) := by
  unfold Gate.blockParams arrParams
  rw [Params.mk.injEq]
  refine ⟨?_, ?_, ?_, ?_, ?_, ?_⟩
  · funext i f; exact wfin_apply m c t i f
  · funext f; exact bfin_apply m c t f
  · funext q f; exact waggr_apply m c t q f
  · funext f; exact baggr_apply m c t f
  · funext q k; exact wf_apply m c t q k
  · funext k; exact bf_apply m c t k

/-- Where every position word of the argument is one of 0 … 7, so is every word of a block of the clamped array. -/
theorem pos_blk_lt (c : Dev nD) (t : Fin cfg0.N)
    (hpos : ∀ (b : Fin 32768) (j : Fin 8), (m ((c : Thread nD τ).loc main_arg4) (ix2 b j)).toNat < 8) (r : Fin 512) (j : Fin 8) :
    (blk4 m c t (ix2 r j)).toNat < 8 := by
  rw [pos_apply m c t r j (hpos (nodeAt t r) j)]
  exact hpos (nodeAt t r) j

/-- Row r of point t's blocks is the data of node 512 t + r read off the argument arrays. -/
theorem node_eq (c : Dev nD) (t : Fin cfg0.N)
    (hpos : ∀ (b : Fin 32768) (j : Fin 8), (m ((c : Thread nD τ).loc main_arg4) (ix2 b j)).toNat < 8) (r : Fin 512) :
    Block.rowNode (blk0 m c t) (blk1 m c t) (blk2 m c t) (blk3 m c t) (blk4 m c t) r
      = arrNode (m ((c : Thread nD τ).loc main_arg0)) (m ((c : Thread nD τ).loc main_arg1)) (m ((c : Thread nD τ).loc main_arg2))
          (m ((c : Thread nD τ).loc main_arg3)) (m ((c : Thread nD τ).loc main_arg4)) (nodeAt t r) := by
  unfold Block.rowNode arrNode
  rw [Node.mk.injEq]
  refine ⟨?_, ?_, ?_, ?_⟩
  · funext i; exact x_apply m c t r i
  · exact mask_apply m c t r
  · funext q
    rw [pos_apply m c t r (slotOf q) (hpos (nodeAt t r) (slotOf q))]
    exact h_apply m c t r _ (featOf q)
  · funext q
    rw [pos_apply m c t r (slotOf q) (hpos (nodeAt t r) (slotOf q))]
    exact c_apply m c t r _ (featOf q)

end Cert.KernelIdeal.Windows

end
-- ==== Proof.KernelArray.lean ====
/-
  From blocks to arrays.  Each of the kernel's two results is written block by block: point t of the 64 writes rows
  512 t … 512 t + 511 and nothing else, so the blocks tile the array and no row is written twice.  What point t writes
  is, row for row, the cell (or hidden) value of the node the row belongs to; hence after the run each result array is
  the cell (or hidden) rows of all 32768 nodes as one function of the argument arrays.
-/
import proofs.«405310_j88210038325568_3_alg».proof.Proof.Gen.KernelIdeal.Value
import proofs.«405310_j88210038325568_3_alg».proof.Proof.KernelBlock
import proofs.«405310_j88210038325568_3_alg».proof.Proof.KernelWindows
import proofs.«405310_j88210038325568_3_alg».proof.Proof.Cell
import Idealize.ShloMosaic.Lib.Pipeline.Value
import Idealize.ShloMosaic.Lib.ValueIdx

set_option maxRecDepth 16384

noncomputable section

namespace Cert.KernelIdeal.Arrays

open Cert.KernelIdeal Cert.KernelIdeal.Gen Cert.KernelIdeal.Windows Cert.ChildSum
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The hidden rows: output window 11 -/

/-- The index map of output window 11, decided over the 64 points: block t of the rows, the one block of the features. -/
theorem idx_facts11 : ∀ t : Fin cfg0.N, win0_11.index t (0 : Fin 2) = t.val ∧ win0_11.index t (1 : Fin 2) = 0 :=
  (by decide +kernel : ∀ t : Fin grid0.N, _)

/-- Every block of rows is some point's. -/
theorem idx_onto11 : ∀ q : Fin 64, ∃ t : Fin cfg0.N, win0_11.index t = ![q.val, 0] :=
  (by decide +kernel : ∀ q : Fin 64, ∃ t : Fin grid0.N, win0_11.index t = ![q.val, 0])

/-- Where point t's block of output window 11 sits: row r of the block is node 512 t + r, feature for feature. -/
theorem emb11 (t : Fin cfg0.N) (r : Fin 512) (f : Fin 128) :
    ((cfg0.win 11).blk t).view.emb (ix2 r f) = ix2 (nodeAt t r) f := by
  obtain ⟨e0, e1⟩ := idx_facts11 t
  funext a; apply Fin.ext
  match a with
  | ⟨0, _⟩ => show win0_11.index t (0 : Fin 2) * 512 + 1 * r.val = t.val * 512 + r.val; omega
  | ⟨1, _⟩ => show win0_11.index t (1 : Fin 2) * 128 + 1 * f.val = f.val; omega

/-- What point t writes back to output window 11 is its block of the hidden rows of all nodes. -/
theorem flushed11_eq (c : Dev nD)
    (hpos : ∀ (b : Fin 32768) (j : Fin 8), (m ((c : Thread nD τ).loc main_arg4) (ix2 b j)).toNat < 8) (t : Fin cfg0.N) :
    (dats m 0 c).flushed 11 t = ((cfg0.win 11).blk t).view.read (Elt Ideal) (hiddenArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  rw [Value.flushed11]
  funext y
  obtain ⟨r, f, rfl⟩ : ∃ (r : Fin 512) (f : Fin 128), y = ix2 r f := ⟨y 0, y 1, eq_ix2 y⟩
  show out0_11 (blk0 m c t) (blk1 m c t) (blk2 m c t) (blk3 m c t) (blk4 m c t) (blk5 m c t) (blk6 m c t) (blk7 m c t) (blk8 m c t) (blk9 m c t) (blk10 m c t) (ix2 r f)
      = hiddenArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (((cfg0.win 11).blk t).view.emb (ix2 r f))
  rw [Block.out11_apply (blk0 m c t) (blk1 m c t) (blk2 m c t) (blk3 m c t) (blk4 m c t) (blk5 m c t) (blk6 m c t) (blk7 m c t) (blk8 m c t) (blk9 m c t) (blk10 m c t) (pos_blk_lt m c t hpos) r f, params_eq m c t, node_eq m c t hpos r, emb11 t r f]
  rfl

/-- An index of the array is in point t's block iff each coordinate is in the block's range on its axis. -/
theorem mem_blk11 (t : Fin cfg0.N) (i : S32768x128.Idx) :
    i ∈ ((cfg0.win 11).blk t).view.set ↔ ∀ a : Fin 2, win0_11.index t a * S512x128.size a ≤ (i a).val ∧ (i a).val < win0_11.index t a * S512x128.size a + S512x128.size a := by
  show i ∈ ((View.whole main_v8_0).slice (win0_11.rect t)).set ↔ _
  rw [View.set_slice_whole, Rect.mem_set_unit]
  exact Iff.rfl

/-- The 64 blocks of 512 rows tile the array: node b is in the block of point b / 512. -/
theorem cover11 (i : S32768x128.Idx) : ∃ t : Fin cfg0.N, (cfg0.win 11).flush t = true ∧ i ∈ ((cfg0.win 11).blk t).view.set := by
  have hi0 : (i 0).val < 32768 := (i 0).isLt
  have hi1 : (i 1).val < 128 := (i 1).isLt
  obtain ⟨t, ht⟩ := idx_onto11 ⟨(i 0).val / 512, by omega⟩
  have q0 : win0_11.index t (0 : Fin 2) = (i 0).val / 512 := congrFun ht 0
  have q1 : win0_11.index t (1 : Fin 2) = 0 := congrFun ht 1
  refine ⟨t, flush0_11 t, ?_⟩
  rw [mem_blk11]
  intro a
  match a with
  | ⟨0, _⟩ => show win0_11.index t (0 : Fin 2) * 512 ≤ (i 0).val ∧ (i 0).val < win0_11.index t (0 : Fin 2) * 512 + 512; omega
  | ⟨1, _⟩ => show win0_11.index t (1 : Fin 2) * 128 ≤ (i 1).val ∧ (i 1).val < win0_11.index t (1 : Fin 2) * 128 + 128; omega

/-- After the run, output window 11's array holds the hidden rows of all nodes. -/
theorem final11 (c : Dev nD)
    (hpos : ∀ (b : Fin 32768) (j : Fin 8), (m ((c : Thread nD τ).loc main_arg4) (ix2 b j)).toNat < 8) :
    (dats m 0 c).arrAt 11 cfg0.N = hiddenArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (dats m 0 c).arrAt_eq_of_cover 11 _ (fun t _ => flushed11_eq m c hpos t) cover11

/-! ## The cell rows: output window 12 -/

/-- The index map of output window 12, decided over the 64 points: block t of the rows, the one block of the features. -/
theorem idx_facts12 : ∀ t : Fin cfg0.N, win0_12.index t (0 : Fin 2) = t.val ∧ win0_12.index t (1 : Fin 2) = 0 :=
  (by decide +kernel : ∀ t : Fin grid0.N, _)

/-- Every block of rows is some point's. -/
theorem idx_onto12 : ∀ q : Fin 64, ∃ t : Fin cfg0.N, win0_12.index t = ![q.val, 0] :=
  (by decide +kernel : ∀ q : Fin 64, ∃ t : Fin grid0.N, win0_12.index t = ![q.val, 0])

/-- Where point t's block of output window 12 sits: row r of the block is node 512 t + r, feature for feature. -/
theorem emb12 (t : Fin cfg0.N) (r : Fin 512) (f : Fin 128) :
    ((cfg0.win 12).blk t).view.emb (ix2 r f) = ix2 (nodeAt t r) f := by
  obtain ⟨e0, e1⟩ := idx_facts12 t
  funext a; apply Fin.ext
  match a with
  | ⟨0, _⟩ => show win0_12.index t (0 : Fin 2) * 512 + 1 * r.val = t.val * 512 + r.val; omega
  | ⟨1, _⟩ => show win0_12.index t (1 : Fin 2) * 128 + 1 * f.val = f.val; omega

/-- What point t writes back to output window 12 is its block of the cell rows of all nodes. -/
theorem flushed12_eq (c : Dev nD)
    (hpos : ∀ (b : Fin 32768) (j : Fin 8), (m ((c : Thread nD τ).loc main_arg4) (ix2 b j)).toNat < 8) (t : Fin cfg0.N) :
    (dats m 0 c).flushed 12 t = ((cfg0.win 12).blk t).view.read (Elt Ideal) (cellArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  rw [Value.flushed12]
  funext y
  obtain ⟨r, f, rfl⟩ : ∃ (r : Fin 512) (f : Fin 128), y = ix2 r f := ⟨y 0, y 1, eq_ix2 y⟩
  show out0_12 (blk0 m c t) (blk1 m c t) (blk2 m c t) (blk3 m c t) (blk4 m c t) (blk5 m c t) (blk6 m c t) (blk7 m c t) (blk8 m c t) (blk9 m c t) (blk10 m c t) (ix2 r f)
      = cellArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (((cfg0.win 12).blk t).view.emb (ix2 r f))
  rw [Block.out12_apply (blk0 m c t) (blk1 m c t) (blk2 m c t) (blk3 m c t) (blk4 m c t) (blk5 m c t) (blk6 m c t) (blk7 m c t) (blk8 m c t) (blk9 m c t) (blk10 m c t) (pos_blk_lt m c t hpos) r f, params_eq m c t, node_eq m c t hpos r, emb12 t r f]
  rfl

/-- An index of the array is in point t's block iff each coordinate is in the block's range on its axis. -/
theorem mem_blk12 (t : Fin cfg0.N) (i : S32768x128.Idx) :
    i ∈ ((cfg0.win 12).blk t).view.set ↔ ∀ a : Fin 2, win0_12.index t a * S512x128.size a ≤ (i a).val ∧ (i a).val < win0_12.index t a * S512x128.size a + S512x128.size a := by
  show i ∈ ((View.whole main_v8_1).slice (win0_12.rect t)).set ↔ _
  rw [View.set_slice_whole, Rect.mem_set_unit]
  exact Iff.rfl

/-- The 64 blocks of 512 rows tile the array: node b is in the block of point b / 512. -/
theorem cover12 (i : S32768x128.Idx) : ∃ t : Fin cfg0.N, (cfg0.win 12).flush t = true ∧ i ∈ ((cfg0.win 12).blk t).view.set := by
  have hi0 : (i 0).val < 32768 := (i 0).isLt
  have hi1 : (i 1).val < 128 := (i 1).isLt
  obtain ⟨t, ht⟩ := idx_onto12 ⟨(i 0).val / 512, by omega⟩
  have q0 : win0_12.index t (0 : Fin 2) = (i 0).val / 512 := congrFun ht 0
  have q1 : win0_12.index t (1 : Fin 2) = 0 := congrFun ht 1
  refine ⟨t, flush0_12 t, ?_⟩
  rw [mem_blk12]
  intro a
  match a with
  | ⟨0, _⟩ => show win0_12.index t (0 : Fin 2) * 512 ≤ (i 0).val ∧ (i 0).val < win0_12.index t (0 : Fin 2) * 512 + 512; omega
  | ⟨1, _⟩ => show win0_12.index t (1 : Fin 2) * 128 ≤ (i 1).val ∧ (i 1).val < win0_12.index t (1 : Fin 2) * 128 + 128; omega

/-- After the run, output window 12's array holds the cell rows of all nodes. -/
theorem final12 (c : Dev nD)
    (hpos : ∀ (b : Fin 32768) (j : Fin 8), (m ((c : Thread nD τ).loc main_arg4) (ix2 b j)).toNat < 8) :
    (dats m 0 c).arrAt 12 cfg0.N = cellArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (dats m 0 c).arrAt_eq_of_cover 12 _ (fun t _ => flushed12_eq m c hpos t) cover12

/-! ## The run, read -/

/-- Where every position word is one of 0 … 7: every weakly fair execution of the kernel's program ends with the first
    result at the hidden rows and the second at the cell rows of all nodes, the arguments unchanged. -/
theorem run (hpos : ∀ (c : Dev nD) (b : Fin 32768) (j : Fin 8), (m ((c : Thread nD τ).loc main_arg4) (ix2 b j)).toNat < 8) :
    θ_run defs (onTc (τ := τ) (main (F := Ideal))) ⟨m, fun _ => 0, ρ⟩ fun r => ∀ c : Dev nD,
      r.2.mem ((c : Thread nD τ).loc main_v8_0) = hiddenArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c : Thread nD τ).loc main_v8_1) = cellArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final11 m c (hpos c)), (h c).2.1.trans (final12 m c (hpos c)), (h c).2.2⟩)
    (Value.run_blocks m ρ)

end Cert.KernelIdeal.Arrays

end
-- ==== Proof.PosRange.lean ====
/-
  The precondition says, besides the finiteness of the float inputs, that every position word lies in the range of
  the eight child slots: 0 ≤ pos[b, j] and pos[b, j] < 8, both signed.  A word that is non-negative and below 8
  signed is below 8 unsigned, so its value names a slot outright.  The printed predicate is a conjunction of
  whole-array "all" reductions; the last two conjuncts are the two comparisons, each true at every index.
-/
import proofs.«405310_j88210038325568_3_alg».proof.Pre_finite_inputs
import proofs.«405310_j88210038325568_3_alg».proof.Proof.Gen.Pre_finite_inputs
import Idealize.ShloMosaic.Lib.ReduceAll
import Idealize.ShloMosaic.Lib.Affine
import Idealize.ShloMosaic.Lib.ValueIdx
import Idealize.ShloMosaic.Lib.StableHlo.Predicate

noncomputable section

namespace Cert.PosRange

open Cert.Pre_finite_inputs Idealize.ShloMosaic Idealize.ShloMosaic.ValueIdx

/-- A word that is at least 0 and below 8, both as signed comparisons, has unsigned value below 8. -/
theorem toNat_lt_eight (w : BitVec 32) (h0 : IntOp.cmpi .sge w (0#32) = 1#1) (h8 : IntOp.cmpi .slt w (8#32) = 1#1) :
    w.toNat < 8 := by
  unfold IntOp.cmpi at h0 h8
  rw [StableHlo.Predicate.ofBool_eq_one_iff] at h0 h8
  simp only [BitVec.slt, BitVec.sle, decide_eq_true_eq] at h0 h8
  have h32 := w.isLt
  unfold BitVec.toInt at h0 h8
  split at h8 <;> simp at h0 h8 <;> omega

instance : Subsingleton S_.Idx := ⟨fun a b => funext fun d => d.elim0⟩

/-- Where the precondition holds, every position word is one of 0 … 7. -/
theorem pos_lt {F : FTy → Type} [FloatOps F] (a0 : FVec F S32768x128 .f32) (a1 : FVec F S32768 .f32) (a2 a3 : FVec F S32768x8x128 .f32)
    (a4 : IVec S32768x8 32) (a5 : FVec F S128x128 .f32) (a6 : FVec F S128 .f32) (a7 : FVec F S1024x128 .f32) (a8 : FVec F S128 .f32)
    (a9 : FVec F S1024x1024 .f32) (a10 : FVec F S1024 .f32)
    (h : fn (F := F) a0 a1 a2 a3 a4 a5 a6 a7 a8 a9 a10 = fun _ => 1#1) (b : Fin 32768) (j : Fin 8) :
    (a4 (ix2 b j)).toNat < 8 := by
  have e := congrFun h ix0
  unfold fn fn_part1 fn_part2 fn_part3 at e
  dsimp only at e
  obtain ⟨e1, e8⟩ := IntOp.andi_eq_one.1 e
  obtain ⟨-, e0⟩ := IntOp.andi_eq_one.1 e1
  have h0 := Host.reduce_andi_all _ _ _ _ _ e0 (ix2 b j)
  have h8 := Host.reduce_andi_all _ _ _ _ _ e8 (ix2 b j)
  exact toNat_lt_eight _ h0 h8

end Cert.PosRange

end
-- ==== Proof.lean ====
/-
  The kernel computes, for each of 32768 tree nodes, the cell row  c = Σ_j σ(gate_j) · nc_j  over its eight child slots
  and the hidden row  h = o · tanh c,  where slot j's child rows nh_j, nc_j are chosen by a position word, the gates are
  a linear image of the chosen hidden rows plus the node's own masked input term (added twice), and o is another linear
  image of the chosen hidden rows.  The reference chooses the child by an indexed read; the kernel by a sum of the eight
  candidate rows weighted by the indicators [pos = d], after clamping the word to 0 … 7.  For words outside 0 … 7 the two
  differ (the reference wraps a negative word and fills out-of-range reads), so the claim is stated where every position
  word is one of 0 … 7, the range of the slot axis it indexes.  There both programs compute the same two functions of the
  argument arrays (Proof/Cell.lean): the kernel block by block (Proof/KernelGather.lean, KernelGate.lean,
  KernelBlock.lean, KernelWindows.lean, KernelArray.lean), the reference operation by operation (Proof/RefGather.lean,
  RefCell.lean).  A change of float format is the identity on extended reals, a matrix product is the sum over the
  contracted axis on both sides, and 0 · a = 0, 1 · a = a, 0 + a = a hold for every extended real, so no finiteness is used.
-/
import proofs.«405310_j88210038325568_3_alg».proof.Defs
import proofs.«405310_j88210038325568_3_alg».proof.Proof.Gen.Kernel
import proofs.«405310_j88210038325568_3_alg».proof.Proof.Gen.Kernel.Skeleton
import proofs.«405310_j88210038325568_3_alg».proof.Proof.Gen.Kernel.Launch
import proofs.«405310_j88210038325568_3_alg».proof.Proof.Gen.Kernel.Points
import proofs.«405310_j88210038325568_3_alg».proof.Proof.Gen.Kernel.Frame
import proofs.«405310_j88210038325568_3_alg».proof.Proof.Gen.KernelIdeal
import proofs.«405310_j88210038325568_3_alg».proof.Proof.Gen.KernelIdeal.Skeleton
import proofs.«405310_j88210038325568_3_alg».proof.Proof.Gen.KernelIdeal.Launch
import proofs.«405310_j88210038325568_3_alg».proof.Proof.Gen.KernelIdeal.Points
import proofs.«405310_j88210038325568_3_alg».proof.Proof.Gen.KernelIdeal.Frame
import proofs.«405310_j88210038325568_3_alg».proof.Proof.Gen.ReferenceIdeal
import proofs.«405310_j88210038325568_3_alg».proof.Proof.Gen.Pre_finite_inputs
import proofs.«405310_j88210038325568_3_alg».proof.Proof.Gen.KernelIdeal.Value
import proofs.«405310_j88210038325568_3_alg».proof.Proof.RefRun
import proofs.«405310_j88210038325568_3_alg».proof.Proof.RefRead
import proofs.«405310_j88210038325568_3_alg».proof.Proof.RefCell
import proofs.«405310_j88210038325568_3_alg».proof.Proof.KernelArray
import proofs.«405310_j88210038325568_3_alg».proof.Proof.PosRange
import Idealize.ShloMosaic.Adequacy
import Idealize.ShloMosaic.Init

noncomputable section

namespace Cert.Proof

open Idealize.ShloMosaic Idealize.SL.Sem Idealize.ShloMosaic.ValueIdx Cert.ChildSum

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with the two results dropped. -/
theorem frame_referenceIdeal : Cert.frame_ReferenceIdeal := fun m ρ _ =>
  (θ_run Cert.ReferenceIdeal.defs _ _).mono (fun _ h c => (h c).2.2) (Cert.ReferenceIdeal.ValueP.run (F := Ideal) m ρ)

/-- The idealized kernel is the kernel's own text: the ideal pass rewrote nothing. -/
theorem preserves : Cert.preserves_Kernel_KernelIdeal := trivial

/-- Where every position word is one of 0 … 7, both programs end with the hidden rows and the cell rows of all nodes
    (Proof/Cell.lean's two functions of the argument arrays) and with their arguments unchanged. -/
theorem algebraic : Cert.algebraic_KernelIdeal_ReferenceIdeal := by
  intro m ρ m' ρ' hpre hagree
  have hpos : ∀ (c : Dev Cert.KernelIdeal.nD) (b : Fin 32768) (j : Fin 8),
      (m ((c.tc : Thread Cert.KernelIdeal.nD Cert.KernelIdeal.τ).loc Cert.KernelIdeal.main_arg4) (ix2 b j)).toNat < 8 :=
    fun c b j => Cert.PosRange.pos_lt _ _ _ _ _ _ _ _ _ _ _ (hpre c) b j
  refine ⟨fun c => hiddenArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => cellArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    Cert.KernelIdeal.Arrays.run m ρ hpos, ?_⟩
  refine (θ_run Cert.ReferenceIdeal.defs _ _).mono (fun _ h c => ⟨(h c).1.trans ?_, (h c).2.1.trans ?_, (h c).2.2⟩)
    (Cert.ReferenceIdeal.ValueP.run (F := Ideal) m' ρ')
  · obtain ⟨h0, h1, h2, h3, h4, h5, h6, h7, h8, h9, h10⟩ := hagree c
    rw [Cert.ReferenceIdeal.ReadP.val_main_v34_eq m' c, h0, h1, h2, h3, h4, h5, h6, h7, h8, h9, h10]
    exact Cert.ReferenceIdeal.RefCell.hidden_ref _ _ _ _ _ _ _ _ _ _ _ (hpos c)
  · obtain ⟨h0, h1, h2, h3, h4, h5, h6, h7, h8, h9, h10⟩ := hagree c
    rw [Cert.ReferenceIdeal.ReadP.val_main_v32_eq m' c, h0, h1, h2, h3, h4, h5, h6, h9, h10]
    exact Cert.ReferenceIdeal.RefCell.cell_ref _ _ _ _ _ _ _ _ _ _ _ (hpos c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
